-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 32000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x32000 : Shape := ⟨2, ![4096, 32000]⟩
abbrev S4096 : Shape := ⟨1, ![4096]⟩
abbrev S4096x1 : Shape := ⟨2, ![4096, 1]⟩
abbrev S256x6400 : Shape := ⟨2, ![256, 6400]⟩
abbrev S256x1 : Shape := ⟨2, ![256, 1]⟩
abbrev S256 : Shape := ⟨1, ![256]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S4096x1, .f32⟩
  | .hbm, ⟨4, _⟩ => ⟨S_, .f32⟩
  | .hbm, ⟨5, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v41 : BitVec 1 := Scalar.cmpi .eq arg1 c4_i32
  let v42 : BitVec 32 := Scalar.extui v41
  let c0_i32_19 : BitVec 32 := 0#32
  let v43 : BitVec 1 := Scalar.cmpi .ne v42 c0_i32_19
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4096_S4096x1 : S4096.ShapeCasts S4096x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6400_S256x6400_0_0 : ∀ a, (![0, 0] : Fin 2 → Nat) a + S256x6400.size a ≤ S256x6400.size a
  h_S256x6400 : 0 < S256x6400.numel
  iota_S256x6400_d1_w32 : S256x6400.Iotas .tc 32 [1]
  broadcasts_S256x1_S256x6400 : S256x1.Broadcasts S256x6400
  reduces_S256x6400_S256 : S256x6400.Reduces [1] S256
  shapeCasts_S256_S256x1 : S256.ShapeCasts S256x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S4096x32000.size a
  hwx0_0 : ∀ i : grid0.Coords, EltTy.bits .f32 = 32 ∨ (Rect.block (s := S4096x32000) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .i32 = 32 ∨ (Rect.block (s := S4096x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)

variable [Facts₀]

abbrev win0_0 : Pipeline.Window sig grid0 :=
  Pipeline.Window.ofSpec (Memref.whole main_arg0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .i1⟩
  | .hbm, ⟨45, _⟩ => ⟨S_, .f32⟩
  | .hbm, ⟨46, _⟩ => ⟨S4096, .f32⟩
  | .hbm, ⟨47, _⟩ => ⟨S4096, .i1⟩
  | .hbm, ⟨48, _⟩ => ⟨S_, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_cst_1 : Ref sig .tc := ⟨.hbm, 48, rfl⟩
abbrev main_cst_2 : Ref sig .tc := ⟨.hbm, 49, rfl⟩
abbrev main_call2_v0 : Ref sig .tc := ⟨.hbm, 50, rfl⟩
abbrev main_call2_v1 : Ref sig .tc := ⟨.hbm, 51, rfl⟩
abbrev main_v9 : Ref sig .tc := ⟨.hbm, 52, rfl⟩
abbrev main_cst_3 : Ref sig .tc := ⟨.hbm, 53, rfl⟩
abbrev main_call3_v0 : Ref sig .tc := ⟨.hbm, 54, rfl⟩
abbrev main_v10 : Ref sig .tc := ⟨.hbm, 55, rfl⟩
abbrev main_cst_4 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_5 : Ref sig .tc := ⟨.hbm, 63, rfl⟩
abbrev main_v17 : Ref sig .tc := ⟨.hbm, 64, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.RowLoss.lean ====
/-
  The adaptive focal loss of a table of scores against a column of class labels, on the extended reals.

  Row `p` of the table holds 32000 scores. With `M` the row's greatest score and `S = ∑ q, e^(x q - M)`, the
  log-probability of the row's label `t` is `lp = (x t - M) - log S`, its probability `pt = e^lp`, and the row's loss is
  `-(1 - pt)^γ · lp` with the exponent `γ = 3` where `pt ≥ 1/2`, else `5` where `pt < 0.2`, else `3`. The loss of the table
  is the sum of its rows' losses. The two thresholds are the binary values both programs spell; they are compared,
  never evaluated.
-/
import Idealize.ShloMosaic.PureOps.Ideal
import Idealize.ShloMosaic.PureOps.Ideal.Laws
import Idealize.ShloMosaic.Lib.ValueIdx

noncomputable section

open scoped BigOperators

namespace Cert.Focal

open Idealize.ShloMosaic Idealize.ShloMosaic.ValueIdx

/-- The table of scores and the column of labels. -/
abbrev Scores : Shape := ⟨2, ![4096, 32000]⟩
abbrev Labels : Shape := ⟨1, ![4096]⟩

/-- The threshold `1/2` and the threshold both programs write `0.2`, as the values their patterns denote. -/
def half : EReal := Ideal.ofBits .f32 0x3F000000#32
def fifth : EReal := Ideal.ofBits .f32 0x3E4CCCCD#32

/-- The patterns of `1.0`, `3.0` and `5.0` denote 1, 3 and 5. -/
theorem ofBits_one : Ideal.ofBits .f32 0x3F800000#32 = 1 := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_five : Ideal.ofBits .f32 0x40A00000#32 = ((5 : ℝ) : EReal) := by
  simp [Ideal.ofBits, Ideal.ieee, -EReal.coe_mul]; norm_num

/-- The pattern of `-∞` denotes the least extended real. -/
theorem ofBits_neg_inf : Ideal.ofBits .f32 0xFF800000#32 = ⊥ := by
  simp [Ideal.ofBits, Ideal.ieee]

/-- A choice on `y ≤ x` (a float `≥`). -/
theorem select_oge {α : Type} (x y : EReal) (a b : α) :
    Scalar.select (Ideal.cmp .oge x y) a b = if y ≤ x then a else b := by
  unfold Scalar.select Ideal.cmp
  by_cases h : y ≤ x <;> simp [h]

/-- A choice on `x < y` (a float `<`). -/
theorem select_olt {α : Type} (x y : EReal) (a b : α) :
    Scalar.select (Ideal.cmp .olt x y) a b = if x < y then a else b := by
  unfold Scalar.select Ideal.cmp
  by_cases h : x < y <;> simp [h]

/-- The focusing exponent at probability `pt`. -/
def gamma (pt : EReal) : EReal :=
  if half ≤ pt then ((3 : ℝ) : EReal) else if pt < fifth then ((5 : ℝ) : EReal) else ((3 : ℝ) : EReal)

/-- A row's loss from its label's log-probability. -/
def focal (lp : EReal) : EReal :=
  -(Ideal.pow (1 - Ideal.exp lp) (gamma (Ideal.exp lp))) * lp

/-- The class a label word names. -/
def col (w : BitVec 32) : Fin 32000 := ⟨w.toNat % 32000, Nat.mod_lt _ (by norm_num)⟩

/-- A row's greatest score. -/
def rowMax (x : Scores.Idx → EReal) (p : Fin 4096) : EReal :=
  (Finset.univ : Finset (Fin 32000)).sup fun q => x (ix2 p q)

/-- A row's sum of exponentials against its greatest score. -/
def rowSum (x : Scores.Idx → EReal) (p : Fin 4096) : EReal :=
  ∑ q : Fin 32000, Ideal.exp (x (ix2 p q) - rowMax x p)

/-- The log-probability of row `p`'s label. -/
def logProb (x : Scores.Idx → EReal) (t : Labels.Idx → BitVec 32) (p : Fin 4096) : EReal :=
  x (ix2 p (col (t (ix1 p)))) - rowMax x p - Ideal.log (rowSum x p)

/-- The loss of the table. -/
def loss (x : Scores.Idx → EReal) (t : Labels.Idx → BitVec 32) : EReal :=
  ∑ p : Fin 4096, focal (logProb x t p)

end Cert.Focal

end
-- ==== Proof.LibOnlineSoftmax.lean ====
/-
  The online softmax over a finite set of positions, on the extended reals.

  Positions `p` carry a score `x p`, an additive mask `w p` and a value `v p`, all real numbers (as extended
  reals). For a finite set `S` of positions the state of a streaming softmax is the triple
    M = max over S of x,   L = ∑ p ∈ S, e^(x p + w p - M),   A = ∑ p ∈ S, e^(x p + w p - M) · v p,
  with `M = ⊥` and `L = A = 0` on the empty set. Taking in a further nonempty set `T` of positions, disjoint
  from `S`, the new maximum is `M' = max M (max over T of x)` and the old sums are rescaled by `e^(M - M')`:
    L' = e^(M - M') · L + ∑ p ∈ T, e^(x p + w p - M'),
  and likewise for `A`. The rescaling is exact: `e^(M - M') · e^(x + w - M) = e^(x + w - M')` for real
  numbers, and on the empty set `e^(⊥ - M') · 0 = 0`. So the triple after `S ∪ T` is again the state of
  `S ∪ T`, whatever the order and grouping in which positions arrive.
-/
import Idealize.ShloMosaic.PureOps.Ideal

noncomputable section

open scoped BigOperators

namespace Cert.Lib.OnlineSoftmax

open Idealize.ShloMosaic

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact IsReal.add (hf a (Finset.mem_insert_self a s)) (ih (fun i hi => hf i (Finset.mem_insert_of_mem hi)))

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from `⊥` is the supremum. -/
theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

variable {P : Type*} [DecidableEq P]

/-- The maximum of real scores over a nonempty set is a real number. -/
theorem sup_isReal (x : P → EReal) (hx : ∀ p, IsReal (x p)) (S : Finset P) (hS : S.Nonempty) : IsReal (S.sup x) := by
  obtain ⟨p, _, hp⟩ := Finset.exists_mem_eq_sup S hS x
  rw [hp]
  exact hx p

/-- The weight of position `p` against the maximum `M`. -/
def wt (x w : P → EReal) (M : EReal) (p : P) : EReal := Ideal.exp (x p + w p - M)

/-- The maximum after taking in `T`. -/
theorem step_max (x : P → EReal) (S T : Finset P) : max (S.sup x) (T.sup x) = (S ∪ T).sup x := by
  exact Finset.sup_union.symm

/-- The weighted sum after taking in `T`: the old sum rescaled plus the new positions' terms. -/
theorem step_acc (x w v : P → EReal) (hx : ∀ p, IsReal (x p)) (hw : ∀ p, IsReal (w p)) (hv : ∀ p, IsReal (v p))
    (S T : Finset P) (hST : Disjoint S T) (hT : T.Nonempty) :
    Ideal.exp (S.sup x - (S ∪ T).sup x) * (∑ p ∈ S, wt x w (S.sup x) p * v p)
        + ∑ p ∈ T, wt x w ((S ∪ T).sup x) p * v p
      = ∑ p ∈ S ∪ T, wt x w ((S ∪ T).sup x) p * v p := by
  classical
  -- real witnesses for the scores, the masks and the values
  choose xr hxr using hx
  choose wr hwr using hw
  choose vr hvr using hv
  obtain rfl : x = fun p => (xr p : EReal) := funext hxr
  obtain rfl : w = fun p => (wr p : EReal) := funext hwr
  obtain rfl : v = fun p => (vr p : EReal) := funext hvr
  rcases S.eq_empty_or_nonempty with rfl | hS
  · -- nothing seen so far: the old sum is empty, and `e^(⊥ - M') · 0 = 0`
    simp
  · -- both maxima are real numbers, and the identity is one of real numbers
    obtain ⟨M, hM⟩ := sup_isReal (fun p => (xr p : EReal)) (fun p => ⟨xr p, rfl⟩) S hS
    obtain ⟨M', hM'⟩ := sup_isReal (fun p => (xr p : EReal)) (fun p => ⟨xr p, rfl⟩) (S ∪ T)
      (hS.mono Finset.subset_union_left)
    simp only [wt, hM, hM', ← EReal.coe_add, ← EReal.coe_sub, Ideal.exp_coe, ← EReal.coe_mul,
      ← coe_finset_sum]
    congr 1
    rw [Finset.sum_union hST, Finset.mul_sum]
    congr 1
    refine Finset.sum_congr rfl (fun p _ => ?_)
    -- `e^(M - M') · e^(x + w - M) = e^(x + w - M')`
    rw [← mul_assoc, ← Real.exp_add]
    congr 2
    ring

/-- The sum of weights after taking in `T`. -/
theorem step_sum (x w : P → EReal) (hx : ∀ p, IsReal (x p)) (hw : ∀ p, IsReal (w p))
    (S T : Finset P) (hST : Disjoint S T) (hT : T.Nonempty) :
    Ideal.exp (S.sup x - (S ∪ T).sup x) * (∑ p ∈ S, wt x w (S.sup x) p)
        + ∑ p ∈ T, wt x w ((S ∪ T).sup x) p
      = ∑ p ∈ S ∪ T, wt x w ((S ∪ T).sup x) p := by
  -- the weighted sum with every value equal to one
  have h := step_acc x w (fun _ => (1 : EReal)) hx hw (fun _ => ⟨1, EReal.coe_one.symm⟩) S T hST hT
  simp only [mul_one] at h
  exact h

/-- Against a real maximum the mask may be added before or after the maximum is taken off. -/
theorem wt_comm (x w : P → EReal) (M : EReal) (p : P) (hx : IsReal (x p)) (hw : IsReal (w p)) (hM : IsReal M) :
    wt x w M p = Ideal.exp (x p - M + w p) := by
  obtain ⟨a, ha⟩ := hx
  obtain ⟨b, hb⟩ := hw
  obtain ⟨m, rfl⟩ := hM
  rw [wt, ha, hb, ← EReal.coe_add, ← EReal.coe_sub, ← EReal.coe_sub, ← EReal.coe_add]
  congr 2
  ring

end Cert.Lib.OnlineSoftmax

end
-- ==== Proof.PreRead.lean ====
/-
  Reading the printed precondition of the focal-loss claim.

  The precondition is the conjunction of two reductions by `and`: over the table of scores, of the bit
  `|x i| < +∞`; over the column of labels, of the bit `0 ≤ t p ∧ t p < 32000` (signed comparisons of 32-bit words).
  If the conjunction is 1 then each reduction is 1, so each bit is 1 at every index. On the extended reals
  `max a (-a) < ⊤` excludes `a = ⊤` and `a = ⊥`, so `a` is a real number. A word whose signed value lies in
  `[0, 32000)` has a clear top bit, so its unsigned value is the same number and is below 32000.
-/
import Idealize.ShloMosaic.PureOps.Ideal
import Idealize.ShloMosaic.PureOps.Ideal.Laws
import Idealize.ShloMosaic.Lib.ValueIdx
import Idealize.ShloMosaic.Lib.Affine
import Idealize.ShloMosaic.Lib.ReduceAll
import proofs.«418412_j41128606826808_3_alg».proof.Pre_finite_inputs
import proofs.«418412_j41128606826808_3_alg».proof.Proof.Gen.Pre_finite_inputs
import proofs.«418412_j41128606826808_3_alg».proof.Proof.RowLoss
import proofs.«418412_j41128606826808_3_alg».proof.Proof.LibOnlineSoftmax

noncomputable section

namespace Cert.Focal.PreRead

open Idealize.ShloMosaic Idealize.ShloMosaic.ValueIdx

/-- The pattern of `+∞` denotes the greatest extended real. -/
theorem ofBits_pos_inf : Ideal.ofBits .f32 0x7F800000#32 = (⊤ : EReal) := by
  simp [Ideal.ofBits, Ideal.ieee]

/-- A float `<` whose bit is 1 is the strict order of the extended reals. -/
theorem lt_of_cmp_olt {a b : EReal} (h : Ideal.cmp .olt a b = 1#1) : a < b := by
  by_contra hn
  simp [Ideal.cmp, hn] at h

/-- An extended real whose absolute value `max a (-a)` is below `⊤` is a real number:
    at `⊤` the maximum is `⊤`, and at `⊥` it is `-⊥ = ⊤`. -/
theorem isReal_of_abs_lt_top (a : EReal) (h : max a (-a) < ⊤) : Cert.Lib.OnlineSoftmax.IsReal a := by
  induction a using EReal.rec with
  | bot => simp at h
  | coe r => exact ⟨r, rfl⟩
  | top => simp at h

/-- A 32-bit word whose signed value is in `[0, 32000)` has unsigned value below 32000: a nonnegative signed
    value means the top bit is clear, and then the signed and the unsigned value are the same number. -/
theorem toNat_lt_of_signed_range (w : BitVec 32) (h0 : (0#32 : BitVec 32).toInt ≤ w.toInt)
    (h1 : w.toInt < (32000#32 : BitVec 32).toInt) : w.toNat < 32000 := by
  have e0 : (0#32 : BitVec 32).toInt = 0 := by decide
  have e1 : (32000#32 : BitVec 32).toInt = 32000 := by decide
  rw [e0] at h0
  rw [e1] at h1
  have hw := w.isLt
  rw [BitVec.toInt_eq_toNat_cond] at h0 h1
  split at h0 <;> omega

/-- The result of a reduction over all axes has one index. -/
theorem scalar_subsingleton : Subsingleton Cert.Pre_finite_inputs.S_.Idx :=
  ⟨fun a b => funext fun d => d.elim0⟩

end Cert.Focal.PreRead

namespace Cert.Focal

open Idealize.ShloMosaic Idealize.ShloMosaic.ValueIdx

/-- What the precondition says of the two arrays: every score is a real number, and every label, read as an
    unsigned word, is a class below 32000. -/
theorem pre_reads [Cert.Pre_finite_inputs.Facts] (x : Scores.Idx → EReal) (t : Labels.Idx → BitVec 32)
    (h : Cert.Pre_finite_inputs.fn (F := Ideal) x t = fun _ => 1#1) :
    (∀ i, Cert.Lib.OnlineSoftmax.IsReal (x i)) ∧ (∀ p : Fin 4096, (t (ix1 p)).toNat < 32000) := by
  haveI := PreRead.scalar_subsingleton
  -- the one entry of the result, with the function's chain of operations in view
  have h0 := congrFun h ValueIdx.ix0
  dsimp only [Cert.Pre_finite_inputs.fn] at h0
  -- the scalar conjunction: both reductions are 1
  obtain ⟨hx, ht⟩ := IntOp.andi_eq_one.1 h0
  refine ⟨fun i => ?_, fun p => ?_⟩
  · -- the scores: the bit `|x i| < +∞` is 1 at every index
    have hi := Host.reduce_andi_all _ _ _ _ _ hx i
    have hi' : Ideal.cmp .olt (max (x i) (-(x i))) (Ideal.ofBits .f32 0x7F800000#32) = 1#1 := hi
    rw [PreRead.ofBits_pos_inf] at hi'
    exact PreRead.isReal_of_abs_lt_top (x i) (PreRead.lt_of_cmp_olt hi')
  · -- the labels: the bit `0 ≤ t p ∧ t p < 32000` is 1 at every position
    have hp := Host.reduce_andi_all _ _ _ _ _ ht (ix1 p)
    have hp' : IntOp.andi (IntOp.cmpi .sge (t (ix1 p)) 0#32) (IntOp.cmpi .slt (t (ix1 p)) 32000#32) = 1#1 := hp
    obtain ⟨hge, hlt⟩ := IntOp.andi_eq_one.1 hp'
    exact PreRead.toNat_lt_of_signed_range _ (IntOp.cmpi_sge.1 hge) (IntOp.cmpi_slt.1 hlt)

end Cert.Focal

end
-- ==== Proof.RefStages.lean ====
/- The run of the reference program read back over stages.
   The program is a straight line of 63 host operations. The line is cut into three stretches: the
   first computes the row-wise log-softmax of the first argument, the second gathers one entry of each
   row at the (wrapped, range-checked) index the second argument gives, the third maps the gathered
   entries to the focal-loss terms and sums them. The contents a buffer holds after a concatenation of
   two lines is what the second line leaves from what the first line left; so the value of the result
   buffer after the whole line is the third stage's function of the second stage's value, which is the
   second stage's function of the first stage's value and of the untouched second argument. Each stage
   lemma is over an arbitrary valuation of the buffers. -/
import proofs.«418412_j41128606826808_3_alg».proof.Proof.RefOps
import proofs.«418412_j41128606826808_3_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 1–15: the row-wise log-softmax of the first argument, ending at `main_v0`. -/
abbrev opsA : List (HloOp τ sig (Elt F)) :=
  [ TRef.nullary (TRef.of (T := ⟨S_, .f32⟩) main_call0_cst) (constant S_ .f32 0xFF800000#32),
    TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_arg0) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v0) subf ]

/-- Operations 16–38: the index column and the gather along the class axis, ending at `main_v2`. -/
abbrev opsB : List (HloOp τ sig (Elt F)) :=
  [ unary main_arg1 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x32000, .f32⟩) main_v0) (TRef.of (T := ⟨S4096x1x1, .i32⟩) main_call1_v5) (TRef.of (T := ⟨S4096x1, .f32⟩) main_call1_v13) (fun x i => Host.gather gather_S4096x32000_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select ]

/-- Operations 39–63: the focal-loss terms and their sum, ending at `main_v17`. -/
abbrev opsC : List (HloOp τ sig (Elt F)) :=
  [ reshape main_v2 main_v3 rfl shapeCasts_S4096x1_S4096,
    unary main_v3 main_v4 (Host.exp : (⟨S4096, .f32⟩ : BufTy).Contents (Elt F) → (⟨S4096, .f32⟩ : BufTy).Contents (Elt F)),
    nullary main_cst (constant S_ .f32 0x3F000000#32),
    unary main_cst main_v5 (broadcastInDim S4096 ![] bcast_S_S4096 : (⟨S_, .f32⟩ : BufTy).Contents (Elt F) → (⟨S4096, .f32⟩ : BufTy).Contents (Elt F)),
    binary main_v4 main_v5 main_v6 (cmpf .oge : (⟨S4096, .f32⟩ : BufTy).Contents (Elt F) → (⟨S4096, .f32⟩ : BufTy).Contents (Elt F) → (⟨S4096, .i1⟩ : BufTy).Contents (Elt F)),
    nullary main_cst_0 (constant S_ .f32 0x3E4CCCCD#32),
    unary main_cst_0 main_v7 (broadcastInDim S4096 ![] bcast_S_S4096 : (⟨S_, .f32⟩ : BufTy).Contents (Elt F) → (⟨S4096, .f32⟩ : BufTy).Contents (Elt F)),
    binary main_v4 main_v7 main_v8 (cmpf .olt : (⟨S4096, .f32⟩ : BufTy).Contents (Elt F) → (⟨S4096, .f32⟩ : BufTy).Contents (Elt F) → (⟨S4096, .i1⟩ : BufTy).Contents (Elt F)),
    nullary main_cst_1 (constant S_ .f32 0x40A00000#32),
    nullary main_cst_2 (constant S_ .f32 0x40400000#32),
    TRef.unary (TRef.of (T := ⟨S_, .f32⟩) main_cst_1) (TRef.of (T := ⟨S4096, .f32⟩) main_call2_v0) (broadcastInDim S4096 ![] bcast_S_S4096),
    TRef.unary (TRef.of (T := ⟨S_, .f32⟩) main_cst_2) (TRef.of (T := ⟨S4096, .f32⟩) main_call2_v1) (broadcastInDim S4096 ![] bcast_S_S4096),
    TRef.ternary (TRef.of (T := ⟨S4096, .i1⟩) main_v8) (TRef.of (T := ⟨S4096, .f32⟩) main_call2_v0) (TRef.of (T := ⟨S4096, .f32⟩) main_call2_v1) (TRef.of (T := ⟨S4096, .f32⟩) main_v9) select,
    nullary main_cst_3 (constant S_ .f32 0x40400000#32),
    TRef.unary (TRef.of (T := ⟨S_, .f32⟩) main_cst_3) (TRef.of (T := ⟨S4096, .f32⟩) main_call3_v0) (broadcastInDim S4096 ![] bcast_S_S4096),
    TRef.ternary (TRef.of (T := ⟨S4096, .i1⟩) main_v6) (TRef.of (T := ⟨S4096, .f32⟩) main_call3_v0) (TRef.of (T := ⟨S4096, .f32⟩) main_v9) (TRef.of (T := ⟨S4096, .f32⟩) main_v10) select,
    nullary main_cst_4 (constant S_ .f32 0x3F800000#32),
    unary main_cst_4 main_v11 (broadcastInDim S4096 ![] bcast_S_S4096 : (⟨S_, .f32⟩ : BufTy).Contents (Elt F) → (⟨S4096, .f32⟩ : BufTy).Contents (Elt F)),
    binary main_v11 main_v4 main_v12 (subf : (⟨S4096, .f32⟩ : BufTy).Contents (Elt F) → (⟨S4096, .f32⟩ : BufTy).Contents (Elt F) → (⟨S4096, .f32⟩ : BufTy).Contents (Elt F)),
    unary main_v10 main_v13 (id : (⟨S4096, .f32⟩ : BufTy).Contents (Elt F) → (⟨S4096, .f32⟩ : BufTy).Contents (Elt F)),
    binary main_v12 main_v13 main_v14 (Host.powf : (⟨S4096, .f32⟩ : BufTy).Contents (Elt F) → (⟨S4096, .f32⟩ : BufTy).Contents (Elt F) → (⟨S4096, .f32⟩ : BufTy).Contents (Elt F)),
    unary main_v14 main_v15 (Host.negf : (⟨S4096, .f32⟩ : BufTy).Contents (Elt F) → (⟨S4096, .f32⟩ : BufTy).Contents (Elt F)),
    binary main_v15 main_v3 main_v16 (mulf : (⟨S4096, .f32⟩ : BufTy).Contents (Elt F) → (⟨S4096, .f32⟩ : BufTy).Contents (Elt F) → (⟨S4096, .f32⟩ : BufTy).Contents (Elt F)),
    nullary main_cst_5 (constant S_ .f32 0x00000000#32),
    binary main_v16 main_cst_5 main_v17 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ]

/-- The whole line is the three stretches one after the other. -/
theorem ops_split : (ValueP.ops : List (HloOp τ sig (Elt F))) = opsA ++ (opsB ++ opsC) := rfl

/-- Moving contents to a typed reference's buffer type and back is the identity. -/
theorem ofBuf_toBuf {T : BufTy} (x : TRef sig T) (v : T.Contents (Elt F)) : x.ofBuf (x.toBuf v) = v := by
  obtain ⟨r, h, _, _⟩ := x
  subst h
  rfl

/-- After the first stretch `main_v0` holds the log-softmax stage of what `main_arg0` held. -/
theorem stageA (V : Valuation τ sig (Elt F)) :
    after opsA V (Proc.devRef .tc main_v0) = ReadP.val_main_v0 (F := F) (V (Proc.devRef .tc main_arg0)) := by
  after_results_simp
  simp only [ofBuf_toBuf]
  rfl

/-- No operation of the first stretch writes the second argument. -/
theorem keepA (V : Valuation τ sig (Elt F)) :
    after opsA V (Proc.devRef .tc main_arg1) = V (Proc.devRef .tc main_arg1) := by
  after_results_simp

/-- After the second stretch `main_v2` holds the gathered column, from the log-softmax in `main_v0` and the
    indices in `main_arg1`. -/
theorem stageB (V : Valuation τ sig (Elt F)) (x0 : (⟨S4096x32000, .f32⟩ : BufTy).Contents (Elt F)) (x1 : (⟨S4096, .i32⟩ : BufTy).Contents (Elt F))
    (h0 : V (Proc.devRef .tc main_v0) = ReadP.val_main_v0 (F := F) x0) (h1 : V (Proc.devRef .tc main_arg1) = x1) :
    after opsB V (Proc.devRef .tc main_v2) = ReadP.val_main_v2 (F := F) x0 x1 := by
  after_results_simp
  simp only [ofBuf_toBuf]
  rw [h0, h1]
  rfl

/-- After the third stretch `main_v17` holds the summed loss, from the gathered column in `main_v2`. -/
theorem stageC (V : Valuation τ sig (Elt F)) (x0 : (⟨S4096x32000, .f32⟩ : BufTy).Contents (Elt F)) (x1 : (⟨S4096, .i32⟩ : BufTy).Contents (Elt F))
    (h2 : V (Proc.devRef .tc main_v2) = ReadP.val_main_v2 (F := F) x0 x1) :
    after opsC V (Proc.devRef .tc main_v17) = ReadP.val_main_v17 (F := F) x0 x1 := by
  after_results_simp
  simp only [ofBuf_toBuf]
  rw [h2]
  rfl

/-- The result buffer after the whole line, from the launch contents of a device. -/
theorem result (m : (ℓ : Loc nD τ sig) → Buf (Elt F) ℓ) (c : Dev nD) :
    after (ValueP.ops (F := F)) (launchContents m c) (Proc.devRef .tc main_v17)
      = ReadP.val_main_v17 (F := F) (m ((c.tc : Thread nD τ).loc main_arg0)) (m ((c.tc : Thread nD τ).loc main_arg1)) := by
  rw [ops_split, StableHlo.after_append, StableHlo.after_append]
  exact stageC _ _ _ (stageB _ _ _ (stageA _) (keepA _))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = Cert.ReferenceIdeal.ReadP.val_main_v17 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (result m c),
      (h c main_arg0).trans (by after_results_simp <;> rfl),
      (h c main_arg1).trans (by after_results_simp <;> rfl)⟩)
    (run_seq ValueP.scopedRefs_eq ValueP.scopedSems_eq defs main (fun _ => ValueP.ops) ValueP.main_eq (fun _ => ValueP.ops_sub) m ρ)

end Cert.ReferenceIdeal.Stages

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.LibTakeAlong.lean ====
/-
  A take along the class axis, one column, read at an index.

  `jnp.take_along_axis(x, i, axis = 1)` over an [N × C] array and an [N × 1] column of class numbers is a
  `stablehlo.gather` whose start indices are the [N × 1 × 1] array of those numbers: axis 0 of the operand is a
  BATCHING axis, paired with axis 0 of the start indices (row p of the result reads row p of the operand), axis 1 of
  the operand is collapsed and start-indexed, there is no offset axis, and the index vector lies on axis 2. Entry
  (p, u) of the result is the operand's row p at the column that row p's start index names, read signed and clamped
  into 0 … C − 1.
-/
import Idealize.ShloMosaic.Lib.ValueIdx
import Idealize.ShloMosaic.PureOps.ShapeOps
import Idealize.ShloMosaic.PureOps.Dims

noncomputable section

namespace Cert.Lib

open Idealize.ShloMosaic Idealize.ShloMosaic.ValueIdx

/-- Equal lists read at equal positions give equal entries. -/
theorem getElem_congr_both {β : Type} {l l' : List β} {k k' : Nat} (hl : l = l') (hk : k = k') (h : k < l.length)
    (h' : k' < l'.length) : l[k] = l'[k'] := by
  subst hl; subst hk; rfl

/-- With no offset axis, both axes of an [N × 1] result are batch axes, in order. -/
theorem along_batchDims {N C : Nat} (d : GatherDims ⟨2, ![N, C]⟩ ⟨3, ![N, 1, 1]⟩ ⟨2, ![N, 1]⟩)
    (hoff : d.offsetDims = []) : d.batchDims = [0, 1] := by
  show Shape.kept _ d.offsetDims = _
  rw [hoff]
  rfl

/-- With the index vector on axis 2, the start indices' other axes are 0 and 1, in order. -/
theorem along_siKept {N C : Nat} (d : GatherDims ⟨2, ![N, C]⟩ ⟨3, ![N, 1, 1]⟩ ⟨2, ![N, 1]⟩)
    (hivd : d.indexVectorDim = 2) : d.siKept = [0, 1] := by
  show (List.finRange 3).filter (fun b => decide (b.val ≠ d.indexVectorDim)) = _
  rw [hivd]
  rfl

/-- The coordinate that result index (p, u) gives the start indices' axis 0 is p: axis 0 is the first of the start
    indices' axes other than the index vector's, and the result's first batch axis is its axis 0. -/
theorem along_siCoord0 {N C : Nat} (d : GatherDims ⟨2, ![N, C]⟩ ⟨3, ![N, 1, 1]⟩ ⟨2, ![N, 1]⟩)
    (hoff : d.offsetDims = []) (hivd : d.indexVectorDim = 2) (p : Fin N) (u : Fin 1)
    (hb : (0 : Fin 3) ∈ d.siKept) : (d.siCoord (ix2 p u) 0 hb).val = p.val := by
  unfold GatherDims.siCoord
  simp only [Fin.val_cast]
  have hk : d.siKept.idxOf (0 : Fin 3) = 0 := by rw [along_siKept d hivd]; rfl
  have e : ∀ h, d.batchDims[d.siKept.idxOf (0 : Fin 3)]'h = (0 : Fin 2) := fun h =>
    getElem_congr_both (l' := [0, 1]) (k' := 0) (along_batchDims d hoff) hk h (by simp)
  rw [e]

/-- A TAKE ALONG THE SECOND AXIS, ONE COLUMN. A gather from an [N × C] array at an [N × 1 × 1] array of start indices
    whose axis 0 is the batching axis paired with the operand's axis 0, the operand's axis 1 collapsed and
    start-indexed, no offset axis, the index vector on axis 2, slices of one element: entry (p, u) is the operand's
    row p at column (row p's start index read SIGNED and CLAMPED into 0 … C − 1). -/
theorem gather_along_col {α : Type} {N C w : Nat} (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (p : Fin N) (u : Fin 1) (hC : 0 < C) :
    Host.gather d x idx (ix2 p u)
      = x (ix2 p ⟨min (idx (ix3 p (0 : Fin 1) (0 : Fin 1))).toInt.toNat (C - 1), by omega⟩) := by
  unfold Host.gather
  congr 1
  funext a
  apply Fin.ext
  match a with
  | ⟨0, _⟩ =>
    -- the batching axis: no start, no offset coordinate; the batching coordinate is the result's row
    have hb0 : (0 : Fin 2) ∈ d.operandBatchingDims := by rw [hob]; exact List.mem_singleton.mpr rfl
    have hk0 : (0 : Fin 2) ∉ d.sKept := by rw [GatherDims.mem_sKept]; exact fun h => h.2 hb0
    show (d.operandIdx (ix2 p u) idx 0).val = p.val
    simp only [GatherDims.operandIdx, GatherDims.start_batching _ _ _ _ hb0, GatherDims.offCoord_eq_zero _ _ _ hk0,
      Nat.add_zero, Nat.zero_add]
    unfold GatherDims.batchCoord
    rw [dif_pos hb0]
    -- the start indices' batching axis paired with the operand's axis 0 is their axis 0
    have hsbAll : ∀ y ∈ d.startIndicesBatchingDims, y = 0 := by
      intro y hy; rw [hsb] at hy; exact List.mem_singleton.1 hy
    have key : ∀ (b : Fin 3) (hb : b ∈ d.siKept), b = 0 → (d.siCoord (ix2 p u) b hb).val = p.val := by
      rintro b hb rfl
      exact along_siCoord0 d hoff hivd p u hb
    exact key _ _ (hsbAll _ (List.getElem_mem _))
  | ⟨1, _⟩ =>
    -- the class axis: the clamped start index; no batching and no offset coordinate
    have hb1 : (1 : Fin 2) ∉ d.operandBatchingDims := by rw [hob]; simp
    have hk1 : (1 : Fin 2) ∉ d.sKept := by
      rw [GatherDims.mem_sKept, hcoll]; exact fun h => h.1 (List.mem_singleton.mpr rfl)
    have hm : (1 : Fin 2) ∈ d.startIndexMap := by rw [hsim]; exact List.mem_singleton.mpr rfl
    have hsl : d.sliceSizes 1 = 1 := d.slice_collapsed 1 (by rw [hcoll]; exact List.mem_singleton.mpr rfl)
    -- the start index of result index (p, u) is read at (p, 0, 0)
    have hsi : ∀ c, d.siIdx (ix2 p u) c = ix3 p (0 : Fin 1) (0 : Fin 1) := by
      intro c
      funext b
      match b with
      | ⟨0, _⟩ =>
        unfold GatherDims.siIdx
        rw [dif_neg (by rw [hivd]; simp)]
        apply Fin.ext
        exact along_siCoord0 d hoff hivd p u _
      | ⟨1, _⟩ => exact Subsingleton.elim (α := Fin 1) _ _
      | ⟨2, _⟩ => exact Subsingleton.elim (α := Fin 1) _ _
    show (d.operandIdx (ix2 p u) idx 1).val = _
    simp only [GatherDims.operandIdx, GatherDims.batchCoord_eq_zero _ _ _ hb1, GatherDims.offCoord_eq_zero _ _ _ hk1,
      Nat.add_zero, GatherDims.start, dif_pos hm]
    rw [hsi, hsl]
    rfl

end Cert.Lib

end
-- ==== Proof.RefLoss.lean ====
/-
  The reference's value is the table's adaptive focal loss.

  Per row `p`: the reference's running maximum is the row's greatest score `M`; its shifted scores, their
  exponentials and the sum of those give `S`; the entry its take-along-axis reads at the row's label `t` (a word
  below 32000, so neither the negative-label correction nor the out-of-range fill applies, and the clamp is idle) is
  `(x t - M) - log S`, the label's log-probability; the elementwise tail is the row's loss; and the last sum over
  the rows, re-indexed by the rows' numbers, is the loss of the table.
-/
import proofs.«418412_j41128606826808_3_alg».proof.Proof.RefRead
import proofs.«418412_j41128606826808_3_alg».proof.Proof.RowLoss
import proofs.«418412_j41128606826808_3_alg».proof.Proof.LibKeepdims
import proofs.«418412_j41128606826808_3_alg».proof.Proof.LibTakeAlong
import proofs.«418412_j41128606826808_3_alg».proof.Proof.LibOnlineSoftmax
import Idealize.ShloMosaic.Lib.StableHlo.Predicate
import Idealize.ShloMosaic.Lib.ValueIdx
import Idealize.ShloMosaic.Lib.ValueIdxRank1
import Idealize.ShloMosaic.PureOps.Ideal.Laws

noncomputable section

open scoped BigOperators

namespace Cert.Focal

open Idealize.ShloMosaic Idealize.ShloMosaic.ValueIdx
open Cert.ReferenceIdeal Cert.ReferenceIdeal.Gen Cert.ReferenceIdeal.ReadP

/-- The reference's reduce by maximum, at row `p`, is the row's greatest score. -/
theorem ref_rowMax0 (x : Scores.Idx → EReal) (p : Fin 4096) :
    val_main_call0_v0 (F := Ideal) x (ix1 p) = rowMax x p := by
  unfold val_main_call0_v0
  rw [Cert.Keepdims.hostReduce_max_rows (φ := .f32) x _ _ (by decide) _ p, val_main_call0_cst_apply,
    Ideal.ofBits_def, ofBits_neg_inf, Cert.Lib.OnlineSoftmax.fold_max_bot_eq_sup]
  rfl

/-- Its maximum with the constant `-∞` is the same. -/
theorem ref_rowMax (x : Scores.Idx → EReal) (p : Fin 4096) :
    val_main_call0_v2 (F := Ideal) x (ix1 p) = rowMax x p := by
  rw [val_main_call0_v2_apply, val_main_call0_v1_apply, val_main_call0_cst_0_apply, Ideal.ofBits_def,
    ofBits_neg_inf, Ideal.maximumf_def, ref_rowMax0]
  exact max_eq_right bot_le

/-- The shifted score at `(p, q)`. -/
theorem ref_shift (x : Scores.Idx → EReal) (p : Fin 4096) (q : Fin 32000) :
    val_main_call0_v5 (F := Ideal) x (ix2 p q) = x (ix2 p q) - rowMax x p := by
  rw [val_main_call0_v5_apply, val_main_call0_v4_apply, val_main_call0_v3_apply, Ideal.subf_def]
  have e : idx_main_call0_v3 (idx_main_call0_v4 (ix2 p q)) = ix1 p :=
    funext fun a => Fin.ext (by match a with | ⟨0, _⟩ => rfl)
  rw [e, ref_rowMax]

/-- The sum of the exponentials of row `p`'s shifted scores. -/
theorem ref_rowSum (x : Scores.Idx → EReal) (p : Fin 4096) :
    val_main_call0_v7 (F := Ideal) x (ix1 p) = rowSum x p := by
  rw [val_main_call0_v7_apply, val_main_call0_cst_1_apply, Ideal.ofBits_def, Ideal.ofBits_zero_f32, zero_add]
  unfold rowSum
  refine Finset.sum_congr rfl fun k _ => ?_
  have e : idx_main_call0_v7 (ix1 p) k = ix2 p k :=
    funext fun a => Fin.ext (by match a with | ⟨0, _⟩ => rfl | ⟨1, _⟩ => rfl)
  rw [e, val_main_call0_v6_apply, Ideal.hostUnary_exp_def, ref_shift]

/-- The log-softmax table at `(p, q)`. -/
theorem ref_logSoftmax (x : Scores.Idx → EReal) (p : Fin 4096) (q : Fin 32000) :
    val_main_v0 (F := Ideal) x (ix2 p q) = x (ix2 p q) - rowMax x p - Ideal.log (rowSum x p) := by
  rw [val_main_v0_apply, Ideal.subf_def, ref_shift, val_main_call0_v10_apply, val_main_call0_v9_apply,
    val_main_call0_v8_apply, Ideal.hostUnary_log_def]
  have e : idx_main_call0_v8 (idx_main_call0_v10 (ix2 p q)) = ix1 p :=
    funext fun a => Fin.ext (by match a with | ⟨0, _⟩ => rfl)
  rw [e, ref_rowSum]

/-- The row's label word, as the take reads it: a label below 32000 is not negative, so it is kept as it is. -/
theorem ref_index (t : Labels.Idx → BitVec 32) (p : Fin 4096) (hw : (t (ix1 p)).toNat < 32000) :
    val_main_call1_v5 (F := Ideal) t (ix3 p (0 : Fin 1) (0 : Fin 1)) = t (ix1 p) := by
  have e : idx_main_v1 (idx_main_call1_v5 (ix3 p (0 : Fin 1) (0 : Fin 1))) = ix1 p :=
    funext fun a => Fin.ext (by
      match a with
      | ⟨0, _⟩ =>
        show ((p.val * 1 + 0) * 1 + 0) / 1 = p.val
        omega)
  have hneg : IntOp.cmpi .slt (t (ix1 p)) 0#32 = 0#1 := by
    refine eq_zero_of_ne_one fun h => ?_
    have := (StableHlo.Predicate.slt_iff_toNat (a := t (ix1 p)) (b := 0#32) (by omega) (by decide)).mp h
    exact absurd this (by simp)
  rw [val_main_call1_v5_apply, val_main_call1_v4_apply, val_main_call1_v1_apply, val_main_v1_apply,
    val_main_call1_v0_apply, val_main_call1_c_apply, e, hneg, select_zero]

/-- Every rank-3 index with unit second and third axes is its first coordinate's. -/
theorem idx_unit3 (i : (⟨3, ![4096, 1, 1]⟩ : Shape).Idx) : ∃ p : Fin 4096, i = ix3 p (0 : Fin 1) (0 : Fin 1) :=
  ⟨i 0, funext fun a => by
    match a with
    | ⟨0, _⟩ => rfl
    | ⟨1, _⟩ => exact Subsingleton.elim (α := Fin 1) _ _
    | ⟨2, _⟩ => exact Subsingleton.elim (α := Fin 1) _ _⟩

/-- The in-bounds test `0 ≤ idx ≤ 31999` holds at every entry. -/
theorem ref_inBounds (t : Labels.Idx → BitVec 32) (ht : ∀ p : Fin 4096, (t (ix1 p)).toNat < 32000)
    (i : (⟨3, ![4096, 1, 1]⟩ : Shape).Idx) : val_main_call1_v11 (F := Ideal) t i = 1#1 := by
  obtain ⟨p, rfl⟩ := idx_unit3 i
  have hw := ht p
  rw [val_main_call1_v11_apply, val_main_call1_v7_apply, val_main_call1_v10_apply,
    ref_index t p hw, val_main_call1_v6_apply, val_main_call1_c_2_apply, val_main_call1_v9_apply,
    val_main_call1_v8_apply, val_main_call1_c_1_apply]
  have h1 : IntOp.cmpi .sge (t (ix1 p)) 0#32 = 1#1 :=
    (StableHlo.Predicate.sge_iff_toNat (by omega) (by decide)).mpr (by simp)
  have h2 : IntOp.cmpi .sle (t (ix1 p)) 31999#32 = 1#1 :=
    (StableHlo.Predicate.sle_iff_toNat (by omega) (by decide)).mpr (by
      show (t (ix1 p)).toNat ≤ 31999
      omega)
  rw [h1, h2]
  rfl

/-- A fold of `and` from the bit 1 over bits that are all 1 is 1. -/
theorem fold_and_ones {ι : Type} (s : Finset ι) (f : ι → BitVec 1) (hf : ∀ k, f k = 1#1) :
    s.fold IntOp.andi 1#1 f = 1#1 := by
  classical
  induction s using Finset.induction_on with
  | empty => rfl
  | insert a s ha ih => rw [Finset.fold_insert ha, ih, hf a]; rfl

/-- So the mask, its `and` over the unit axis, is on everywhere. -/
theorem ref_mask (t : Labels.Idx → BitVec 32) (ht : ∀ p : Fin 4096, (t (ix1 p)).toNat < 32000)
    (j : (⟨2, ![4096, 1]⟩ : Shape).Idx) : val_main_call1_v12 (F := Ideal) t j = 1#1 := by
  unfold val_main_call1_v12
  rw [Host.reduce_eq_fold_single IntOp.andi _ _ _ (by decide) _ j, val_main_call1_c_3_apply]
  exact fold_and_ones _ _ fun k => ref_inBounds t ht _

/-- The entry the take reads in row `p`: the log-softmax table at the label's column. -/
theorem ref_take (x : Scores.Idx → EReal) (t : Labels.Idx → BitVec 32) (ht : ∀ p : Fin 4096, (t (ix1 p)).toNat < 32000)
    (p : Fin 4096) :
    val_main_v2 (F := Ideal) x t (ix2 p (0 : Fin 1)) = val_main_v0 (F := Ideal) x (ix2 p (col (t (ix1 p)))) := by
  have hw := ht p
  rw [val_main_v2_apply, ref_mask t ht, select_one]
  unfold val_main_call1_v13
  rw [Cert.Lib.gather_along_col _ rfl rfl rfl rfl rfl rfl _ _ p (0 : Fin 1) (by norm_num)]
  refine congrArg (val_main_v0 (F := Ideal) x) (congrArg (ix2 p) (Fin.ext ?_))
  show min (val_main_call1_v5 (F := Ideal) t (ix3 p (0 : Fin 1) (0 : Fin 1))).toInt.toNat (32000 - 1)
    = (t (ix1 p)).toNat % 32000
  rw [ref_index t p hw, StableHlo.Predicate.toInt_eq_toNat_of_lt (by omega), Int.toNat_natCast,
    Nat.mod_eq_of_lt hw]
  omega

/-- The label's log-probability, as the reference has it after its reshape. -/
theorem ref_logProb (x : Scores.Idx → EReal) (t : Labels.Idx → BitVec 32) (ht : ∀ p : Fin 4096, (t (ix1 p)).toNat < 32000)
    (p : Fin 4096) : val_main_v3 (F := Ideal) x t (ix1 p) = logProb x t p := by
  have e : idx_main_v3 (ix1 p) = ix2 p (0 : Fin 1) :=
    funext fun a => Fin.ext (by
      match a with
      | ⟨0, _⟩ => exact Nat.div_one _
      | ⟨1, _⟩ => rfl)
  rw [val_main_v3_apply, e, ref_take x t ht, ref_logSoftmax]
  rfl

/-- The focusing exponent the two selects choose in row `p`. -/
theorem ref_gamma (x : Scores.Idx → EReal) (t : Labels.Idx → BitVec 32) (ht : ∀ p : Fin 4096, (t (ix1 p)).toNat < 32000)
    (p : Fin 4096) : val_main_v10 (F := Ideal) x t (ix1 p) = gamma (Ideal.exp (logProb x t p)) := by
  simp only [val_main_v10_apply, val_main_v6_apply, val_main_v9_apply, val_main_v8_apply, val_main_v4_apply,
    ref_logProb x t ht, Ideal.hostUnary_exp_def, Ideal.cmpf_def, select_oge, select_olt, val_main_v5_apply,
    val_main_cst_apply, val_main_v7_apply, val_main_cst_0_apply, val_main_call3_v0_apply, val_main_cst_3_apply,
    val_main_call2_v0_apply, val_main_cst_1_apply, val_main_call2_v1_apply, val_main_cst_2_apply, Ideal.ofBits_def,
    ofBits_three, ofBits_five]
  rfl

/-- Row `p`'s term of the reference's last sum is the row's loss. -/
theorem ref_rowLoss (x : Scores.Idx → EReal) (t : Labels.Idx → BitVec 32) (ht : ∀ p : Fin 4096, (t (ix1 p)).toNat < 32000)
    (p : Fin 4096) : val_main_v16 (F := Ideal) x t (ix1 p) = focal (logProb x t p) := by
  simp only [val_main_v16_apply, val_main_v15_apply, val_main_v14_apply, val_main_v13_apply, val_main_v12_apply,
    val_main_v11_apply, val_main_cst_4_apply, val_main_v4_apply, ref_gamma x t ht, ref_logProb x t ht,
    Ideal.ofBits_def, ofBits_one, Ideal.hostUnary_exp_def, Ideal.hostPowf_def, Ideal.hostNegf_def, Ideal.negf_def,
    Ideal.subf_def, Ideal.mulf_def]
  rfl

/-- The reference's value: the sum over the rows, re-indexed by the rows' numbers, of the rows' losses. -/
theorem ref_value (x : Scores.Idx → EReal) (t : Labels.Idx → BitVec 32) (ht : ∀ p : Fin 4096, (t (ix1 p)).toNat < 32000) :
    Cert.ReferenceIdeal.ReadP.val_main_v17 (F := Ideal) x t = fun _ => loss x t := by
  funext i
  rw [val_main_v17_apply, val_main_cst_5_apply, Ideal.ofBits_def, Ideal.ofBits_zero_f32, zero_add]
  unfold loss
  rw [← Equiv.sum_comp (idxEquiv1 (n := 4096)).symm]
  exact Finset.sum_congr rfl fun p _ => ref_rowLoss x t ht p

end Cert.Focal

end
-- ==== Proof.KPieces.lean ====
/-
  What one grid point of the streaming kernel leaves in its three row-wise accumulators and in its output block, as
  functions of what it loaded.

  A grid point (i, j) holds a 256 × 6400 block of scores and the 256 labels of its rows. Its three accumulators hold
  one number per row: the running maximum, the running sum of exponentials against it, and the running sum of the
  label's score. At a first column block (case A) the accumulators are first set to -∞, 0, 0 and then updated, so the
  update reads those three constants; at a later block (cases B and C) it reads what the block before left. At the
  last column block (case C) the output block is the focal loss computed from the three accumulators just updated.
  Each statement below says: the contents the body leaves are the body's arithmetic (the named payloads) of the block,
  the labels and the accumulators' previous contents.
-/
import proofs.«418412_j41128606826808_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later block: the running maximum against the block's row maxima. -/
theorem max_B (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i)
    (x0 : Vec F S256x6400 .f32) (x1 : Vec F S256x1 .i32) (xs0 xs1 xs2 : Vec F S256x1 .f32) :
    sout0_B_0 c i arg2 harg2 arg3 harg3 arg4 harg4 arg5 harg5 arg6 harg6 arg7 harg7 hc0 hc1 x0 x1 xs0 xs1 xs2 = k0_pay1 (k0_pay8 x0 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S256x6400) hz, View.ld_unit_zero (S := S256x1) hz]

/-- A later block: the running sum rescaled to the new maximum plus the block's exponentials. -/
theorem sum_B (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i)
    (x0 : Vec F S256x6400 .f32) (x1 : Vec F S256x1 .i32) (xs0 xs1 xs2 : Vec F S256x1 .f32) :
    sout0_B_1 c i arg2 harg2 arg3 harg3 arg4 harg4 arg5 harg5 arg6 harg6 arg7 harg7 hc0 hc1 x0 x1 xs0 xs1 xs2 = k0_pay2 (k0_pay9 x0 xs0 xs1) := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S256x6400) hz, View.ld_unit_zero (S := S256x1) hz]

/-- A later block: the label's score, added where the label falls in the block. -/
theorem tgt_B (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i)
    (x0 : Vec F S256x6400 .f32) (x1 : Vec F S256x1 .i32) (xs0 xs1 xs2 : Vec F S256x1 .f32) :
    sout0_B_2 c i arg2 harg2 arg3 harg3 arg4 harg4 arg5 harg5 arg6 harg6 arg7 harg7 hc0 hc1 x0 x1 xs0 xs1 xs2 = k0_pay7 i x0 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S256x6400) hz, View.ld_unit_zero (S := S256x1) hz]

/-- The last block: the running maximum. -/
theorem max_C (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 : Vec F S256x6400 .f32) (x1 : Vec F S256x1 .i32) (xs0 xs1 xs2 : Vec F S256x1 .f32) :
    sout0_C_0 c i arg2 harg2 arg3 harg3 arg4 harg4 arg5 harg5 arg6 harg6 arg7 harg7 hc0 hc1 x0 x1 xs0 xs1 xs2 = k0_pay1 (k0_pay8 x0 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread, View.ld_unit_zero (S := S256x6400) hz, View.ld_unit_zero (S := S256x1) hz]

/-- The last block: the running sum. -/
theorem sum_C (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 : Vec F S256x6400 .f32) (x1 : Vec F S256x1 .i32) (xs0 xs1 xs2 : Vec F S256x1 .f32) :
    sout0_C_1 c i arg2 harg2 arg3 harg3 arg4 harg4 arg5 harg5 arg6 harg6 arg7 harg7 hc0 hc1 x0 x1 xs0 xs1 xs2 = k0_pay2 (k0_pay9 x0 xs0 xs1) := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread, View.ld_unit_zero (S := S256x6400) hz, View.ld_unit_zero (S := S256x1) hz]

/-- The last block: the label's score. -/
theorem tgt_C (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 : Vec F S256x6400 .f32) (x1 : Vec F S256x1 .i32) (xs0 xs1 xs2 : Vec F S256x1 .f32) :
    sout0_C_2 c i arg2 harg2 arg3 harg3 arg4 harg4 arg5 harg5 arg6 harg6 arg7 harg7 hc0 hc1 x0 x1 xs0 xs1 xs2 = k0_pay7 i x0 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread, View.ld_unit_zero (S := S256x6400) hz, View.ld_unit_zero (S := S256x1) hz]

/-- The last block: the output rows are the closing arithmetic of the three accumulators as just updated. -/
theorem out_C (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 : Vec F S256x6400 .f32) (x1 : Vec F S256x1 .i32) (xs0 xs1 xs2 : Vec F S256x1 .f32) :
    out0_C_2 c i arg2 harg2 arg3 harg3 arg4 harg4 arg5 harg5 arg6 harg6 arg7 harg7 hc0 hc1 x0 x1 xs0 xs1 xs2 = k0_pay3 (k0_pay1 (k0_pay8 x0 xs0)) (k0_pay2 (k0_pay9 x0 xs0 xs1)) (k0_pay7 i x0 x1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread, View.ld_unit_zero (S := S256x6400) hz, View.ld_unit_zero (S := S256x1) hz, View.readCov_unit_zero (S := S256x1) _ hz]

/-- A first block: the running maximum from -∞. -/
theorem max_A (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i)
    (x0 : Vec F S256x6400 .f32) (x1 : Vec F S256x1 .i32) :
    sout0_A_0 c i arg2 harg2 arg3 harg3 arg4 harg4 arg5 harg5 arg6 harg6 arg7 harg7 hc0 hc1 x0 x1 = k0_pay1 (k0_pay8 x0 k0_pay4) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S256x1) hz, View.readCov_unit_zero (S := S256x1) _ hz]
  simp only [View.readAt_eq_ld, harg2.read_unread, harg3.read_unread, harg5.read_unread, harg6.read_unread, harg7.read_unread, View.ld_unit_zero (S := S256x6400) hz, View.ld_unit_zero (S := S256x1) hz, View.readCov_unit_zero (S := S256x1) _ hz]

/-- A first block: the running sum from 0 (against the maximum from -∞). -/
theorem sum_A (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i)
    (x0 : Vec F S256x6400 .f32) (x1 : Vec F S256x1 .i32) :
    sout0_A_1 c i arg2 harg2 arg3 harg3 arg4 harg4 arg5 harg5 arg6 harg6 arg7 harg7 hc0 hc1 x0 x1 = k0_pay2 (k0_pay9 x0 k0_pay4 k0_pay5) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S256x1) hz, View.readCov_unit_zero (S := S256x1) _ hz]
  simp only [View.readAt_eq_ld, harg2.read_unread, harg3.read_unread, harg5.read_unread, harg6.read_unread, harg7.read_unread, View.ld_unit_zero (S := S256x6400) hz, View.ld_unit_zero (S := S256x1) hz, View.readCov_unit_zero (S := S256x1) _ hz]

/-- A first block: the label's score from 0. -/
theorem tgt_A (c : Dev nD) (i : grid0.Coords) (arg2 : Memref sig .tc .vmem S256x6400 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i)
    (x0 : Vec F S256x6400 .f32) (x1 : Vec F S256x1 .i32) :
    sout0_A_2 c i arg2 harg2 arg3 harg3 arg4 harg4 arg5 harg5 arg6 harg6 arg7 harg7 hc0 hc1 x0 x1 = k0_pay7 i x0 x1 k0_pay6 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S256x1) hz, View.readCov_unit_zero (S := S256x1) _ hz]
  simp only [View.readAt_eq_ld, harg2.read_unread, harg3.read_unread, harg5.read_unread, harg6.read_unread, harg7.read_unread, View.ld_unit_zero (S := S256x6400) hz, View.ld_unit_zero (S := S256x1) hz, View.readCov_unit_zero (S := S256x1) _ hz]

end Cert.KernelIdeal.Pieces

end
-- ==== Proof.KPay.lean ====
/-
  The streaming kernel's arithmetic at one row of a block, on the extended reals.

  For a 256 × 6400 block `x0` and row `r`: the new running maximum is the old one against the row's greatest entry;
  the new running sum is the old one times `e^(old max - new max)` plus the row's sum of `e^(entry - new max)`; the
  label's accumulator gains the entry of the lane whose number equals the label minus the block's first column (as
  32-bit words), and nothing from the other lanes; and the closing arithmetic of a row is the clamped log-probability
  `min (a - (m + log l)) 0`, its exponential `pt`, and `-(1 - pt)^3` or `-(1 - pt)^5` times it, the powers by repeated
  products.
-/
import proofs.«418412_j41128606826808_3_alg».proof.Proof.Gen.KernelIdeal.Skeleton
import proofs.«418412_j41128606826808_3_alg».proof.Proof.RowLoss
import proofs.«418412_j41128606826808_3_alg».proof.Proof.LibKeepdims
import proofs.«418412_j41128606826808_3_alg».proof.Proof.LibOnlineSoftmax
import Idealize.ShloMosaic.Lib.Pipeline.Value
import Idealize.ShloMosaic.Lib.ValueIdx

noncomputable section

open scoped BigOperators

namespace Cert.KernelIdeal.Pay

open Cert.KernelIdeal Cert.KernelIdeal.Gen Idealize.ShloMosaic Idealize.ShloMosaic.ValueIdx
open Cert.Focal (half fifth)

/-- The greatest entry of row `r` of a block. -/
def blockMax (x0 : Vec Ideal S256x6400 .f32) (r : Fin 256) : EReal :=
  (Finset.univ : Finset (Fin 6400)).sup fun k => x0 (ix2 r k)

/-- A choice on the equality of two words. -/
theorem select_eq {α : Type} {w : Nat} (a b : BitVec w) (p q : α) :
    Scalar.select (IntOp.cmpi .eq a b) p q = if a = b then p else q := by
  unfold Scalar.select IntOp.cmpi
  by_cases h : a = b
  · subst h; simp
  · have hb : (a == b) = false := beq_eq_false_iff_ne.mpr h
    simp [hb, h]

theorem pay1_eq (v : FVec Ideal S256x1 .f32) : k0_pay1 (F := Ideal) v = v := shapeCast_self _ _

theorem pay2_eq (v : FVec Ideal S256x1 .f32) : k0_pay2 (F := Ideal) v = v := shapeCast_self _ _

/-- The running maximum. -/
theorem pay8_apply (x0 : Vec Ideal S256x6400 .f32) (v23 : Vec Ideal S256x1 .f32) (r : Fin 256) (u : Fin 1) :
    k0_pay8 x0 v23 (ix2 r u) = max (v23 (ix2 r u)) (blockMax x0 r) := by
  simp only [k0_pay8, maximumf, Ideal.maximumf_def]
  rw [Cert.Keepdims.shapeCast_a_a1_apply, Cert.Keepdims.max_rows_f32, Cert.Focal.ofBits_neg_inf,
    Cert.Lib.OnlineSoftmax.fold_max_bot_eq_sup]
  rfl

/-- The running sum of exponentials. -/
theorem pay9_apply (x0 : Vec Ideal S256x6400 .f32) (v23 v30 : Vec Ideal S256x1 .f32) (r : Fin 256) (u : Fin 1) :
    k0_pay9 x0 v23 v30 (ix2 r u)
      = Ideal.exp (v23 (ix2 r u) - max (v23 (ix2 r u)) (blockMax x0 r)) * v30 (ix2 r u)
        + ∑ k : Fin 6400, Ideal.exp (x0 (ix2 r k) - max (v23 (ix2 r u)) (blockMax x0 r)) := by
  obtain rfl : u = 0 := Subsingleton.elim _ _
  unfold k0_pay9
  show Ideal.exp (v23 (ix2 r 0) - k0_pay8 x0 v23 (ix2 r 0)) * v30 (ix2 r 0)
      + shapeCast S256x1 (multiReduction (F := Ideal) .add [1] S256 (exp (subf x0 (broadcastTo S256x6400 (k0_pay8 x0 v23) broadcasts_S256x1_S256x6400))) 0x00000000#32 reduces_S256x6400_S256 (.inl rfl) rfl) shapeCasts_S256_S256x1 (ix2 r 0) = _
  rw [Cert.Keepdims.shapeCast_a_a1_apply, Cert.Keepdims.add_rows_f32, pay8_apply]
  congr 1
  refine Finset.sum_congr rfl fun k _ => ?_
  show Ideal.exp (x0 (ix2 r k) - broadcastTo S256x6400 (k0_pay8 x0 v23) broadcasts_S256x1_S256x6400 (ix2 r k)) = _
  rw [Cert.Keepdims.broadcastTo_a1_ab_apply, pay8_apply]

/-- The label's accumulator. -/
theorem pay7_apply (i : grid0.Coords) (x0 : Vec Ideal S256x6400 .f32) (x1 : Vec Ideal S256x1 .i32) (v10 : Vec Ideal S256x1 .f32)
    (r : Fin 256) (u : Fin 1) :
    k0_pay7 i x0 x1 v10 (ix2 r u)
      = v10 (ix2 r u) + ∑ k : Fin 6400,
          (if BitVec.ofNat 32 k.val = x1 (ix2 r 0) - BitVec.ofNat 32 (i 1).val * 6400#32 then x0 (ix2 r k) else 0) := by
  obtain rfl : u = 0 := Subsingleton.elim _ _
  unfold k0_pay7
  show (shapeCast S256x1 (addf v10 (shapeCast S256x1 (multiReduction (F := Ideal) .add [1] S256
      (select (cmpi .eq (iota .tc S256x6400 32 [1] iota_S256x6400_d1_w32)
        (broadcastTo S256x6400 (subi (shapeCast S256x1 x1 shapeCasts_S256x1_S256x1) (broadcast S256x1 (Scalar.muli (BitVec.ofNat 32 (i 1).val) 6400#32))) broadcasts_S256x1_S256x6400))
        x0 (broadcast S256x6400 (Scalar.ofBits (F := Ideal) .f32 0x00000000#32)))
      0x00000000#32 reduces_S256x6400_S256 (.inl rfl) rfl) shapeCasts_S256_S256x1)) shapeCasts_S256x1_S256x1) (ix2 r 0) = _
  rw [shapeCast_self]
  show v10 (ix2 r 0) + shapeCast S256x1 _ shapeCasts_S256_S256x1 (ix2 r 0) = _
  rw [Cert.Keepdims.shapeCast_a_a1_apply, Cert.Keepdims.add_rows_f32]
  congr 1
  refine Finset.sum_congr rfl fun k _ => ?_
  show Scalar.select (IntOp.cmpi .eq (BitVec.ofNat 32 (0 * 6400 + k.val))
      (broadcastTo S256x6400 (subi (shapeCast S256x1 x1 shapeCasts_S256x1_S256x1) (broadcast S256x1 (Scalar.muli (BitVec.ofNat 32 (i 1).val) 6400#32))) broadcasts_S256x1_S256x6400 (ix2 r k)))
      (x0 (ix2 r k)) (Ideal.ofBits .f32 0x00000000#32) = _
  rw [Cert.Keepdims.broadcastTo_a1_ab_apply, select_eq, Ideal.ofBits_zero_f32, shapeCast_self, Nat.zero_mul, Nat.zero_add]
  rfl

/-- The closing arithmetic of a row. -/
theorem pay3_apply (v44 v45 v48 : Vec Ideal S256x1 .f32) (j : S256x1.Idx) :
    k0_pay3 v44 v45 v48 j
      = (0 - (if half ≤ Ideal.exp (min (v48 j - (v44 j + Ideal.log (v45 j))) 0)
              then (1 - Ideal.exp (min (v48 j - (v44 j + Ideal.log (v45 j))) 0)) * (1 - Ideal.exp (min (v48 j - (v44 j + Ideal.log (v45 j))) 0)) * (1 - Ideal.exp (min (v48 j - (v44 j + Ideal.log (v45 j))) 0))
              else if Ideal.exp (min (v48 j - (v44 j + Ideal.log (v45 j))) 0) < fifth
              then (1 - Ideal.exp (min (v48 j - (v44 j + Ideal.log (v45 j))) 0)) * (1 - Ideal.exp (min (v48 j - (v44 j + Ideal.log (v45 j))) 0)) * (1 - Ideal.exp (min (v48 j - (v44 j + Ideal.log (v45 j))) 0)) * (1 - Ideal.exp (min (v48 j - (v44 j + Ideal.log (v45 j))) 0)) * (1 - Ideal.exp (min (v48 j - (v44 j + Ideal.log (v45 j))) 0))
              else (1 - Ideal.exp (min (v48 j - (v44 j + Ideal.log (v45 j))) 0)) * (1 - Ideal.exp (min (v48 j - (v44 j + Ideal.log (v45 j))) 0)) * (1 - Ideal.exp (min (v48 j - (v44 j + Ideal.log (v45 j))) 0))))
        * min (v48 j - (v44 j + Ideal.log (v45 j))) 0 := by
  unfold k0_pay3
  simp only [mulf, subf, addf, minimumf, exp, log, cmpf, select, broadcast, Ideal.mulf_def, Ideal.subf_def, Ideal.addf_def,
    Ideal.minimumf_def, Ideal.exp_def, Ideal.log_def, Ideal.cmpf_def, Cert.Focal.select_oge, Cert.Focal.select_olt]
  simp only [Ideal.ofBits_def, Ideal.ofBits_zero_f32, Cert.Focal.ofBits_one]
  rfl

end Cert.KernelIdeal.Pay

end
-- ==== Proof.FocalMath.lean ====
/-
  The arithmetic that joins the streaming kernel to the focal loss, on the extended reals.

  (1) The running state over a set `S` of a row's columns is `M = max over S`, `L = ∑ q ∈ S, e^(x q - M)`. Taking in a
  further block `T` rescales the old sum by `e^(M - M')` with `M' = max M (max over T)`; the result is the state of
  `S ∪ T` (real scores; on the empty set `M = ⊥`, `L = 0` and `e^(⊥ - M') · 0 = 0`).
  (2) Over all columns, `x t - (M + log L) ≤ 0` because `L ≥ e^(x t - M)`: a clamp of the log-probability at `0`
  changes nothing, `x t - (M + log L) = (x t - M) - log L`, and the third and fifth powers by repeated products are the
  real powers `(1 - pt)^3`, `(1 - pt)^5`.
-/
import proofs.«418412_j41128606826808_3_alg».proof.Proof.RowLoss
import proofs.«418412_j41128606826808_3_alg».proof.Proof.LibOnlineSoftmax

noncomputable section

open scoped BigOperators

namespace Cert.Focal

open Idealize.ShloMosaic Cert.Lib.OnlineSoftmax

/-- The streaming step of the sum of exponentials: the old sum rescaled to the new maximum plus the new block's terms. -/
theorem lse_step {P : Type*} [DecidableEq P] (x : P → EReal) (hx : ∀ p, IsReal (x p)) (S T : Finset P)
    (hST : Disjoint S T) (hT : T.Nonempty) :
    Ideal.exp (S.sup x - max (S.sup x) (T.sup x)) * (∑ p ∈ S, Ideal.exp (x p - S.sup x))
        + ∑ p ∈ T, Ideal.exp (x p - max (S.sup x) (T.sup x))
      = ∑ p ∈ S ∪ T, Ideal.exp (x p - (S ∪ T).sup x) := by
  have h := step_sum x (fun _ => (0 : EReal)) hx (fun _ => ⟨0, EReal.coe_zero.symm⟩) S T hST hT
  simp only [wt, add_zero] at h
  rw [step_max]
  exact h

/-- The closing arithmetic of a row, in real numbers: with `m` the greatest score, `l` the sum of exponentials against
    it and `a` the label's score, where `e^(a - m) ≤ l`. -/
theorem tail_real (m l a : ℝ) (hl : 0 < l) (hle : Real.exp (a - m) ≤ l) :
    let lp : EReal := min ((a : EReal) - ((m : EReal) + Ideal.log (l : EReal))) 0
    let pt : EReal := Ideal.exp lp
    let d : EReal := 1 - pt
    (0 - (if half ≤ pt then d * d * d else if pt < fifth then d * d * d * d * d else d * d * d)) * lp
      = focal ((a : EReal) - (m : EReal) - Ideal.log (l : EReal)) := by
  intro lp pt d
  have hlog : Ideal.log (l : EReal) = ((Real.log l : ℝ) : EReal) := by
    rw [Ideal.log_coe, if_neg (not_le.mpr hl)]
  have hle0 : a - (m + Real.log l) ≤ 0 := by
    have : a - m ≤ Real.log l := (Real.le_log_iff_exp_le hl).mpr hle
    linarith
  have hlp : lp = ((a - m - Real.log l : ℝ) : EReal) := by
    show min ((a : EReal) - ((m : EReal) + Ideal.log (l : EReal))) 0 = _
    rw [hlog, ← EReal.coe_add, ← EReal.coe_sub,
      min_eq_left (by rw [← EReal.coe_zero]; exact EReal.coe_le_coe_iff.mpr hle0)]
    congr 1; ring
  have hlp' : (a : EReal) - (m : EReal) - Ideal.log (l : EReal) = lp := by
    rw [hlp, hlog, ← EReal.coe_sub, ← EReal.coe_sub]
  have hpt : pt = ((Real.exp (a - m - Real.log l) : ℝ) : EReal) := by
    show Ideal.exp lp = _
    rw [hlp, Ideal.exp_coe]
  have hd : d = ((1 - Real.exp (a - m - Real.log l) : ℝ) : EReal) := by
    show 1 - pt = _
    rw [hpt, ← EReal.coe_one, ← EReal.coe_sub]
  rw [hlp']
  unfold focal gamma
  show _ = -(Ideal.pow (1 - pt) (if half ≤ pt then ((3 : ℝ) : EReal) else if pt < fifth then ((5 : ℝ) : EReal) else ((3 : ℝ) : EReal))) * lp
  have h3 : Ideal.pow d ((3 : ℝ) : EReal) = d * d * d := by
    rw [hd, Ideal.pow_coe_coe, ← EReal.coe_mul, ← EReal.coe_mul]
    congr 1
    show Real.rpow _ (3 : ℝ) = _
    have : ((3 : ℕ) : ℝ) = 3 := by norm_num
    rw [← this]
    show (1 - Real.exp (a - m - Real.log l)) ^ ((3 : ℕ) : ℝ) = _
    rw [Real.rpow_natCast]; ring
  have h5 : Ideal.pow d ((5 : ℝ) : EReal) = d * d * d * d * d := by
    rw [hd, Ideal.pow_coe_coe, ← EReal.coe_mul, ← EReal.coe_mul, ← EReal.coe_mul, ← EReal.coe_mul]
    congr 1
    show Real.rpow _ (5 : ℝ) = _
    have : ((5 : ℕ) : ℝ) = 5 := by norm_num
    rw [← this]
    show (1 - Real.exp (a - m - Real.log l)) ^ ((5 : ℕ) : ℝ) = _
    rw [Real.rpow_natCast]; ring
  show (0 - _) * lp = -(Ideal.pow d _) * lp
  by_cases c1 : half ≤ pt
  · rw [if_pos c1, if_pos c1, h3, zero_sub]
  · rw [if_neg c1, if_neg c1]
    by_cases c2 : pt < fifth
    · rw [if_pos c2, if_pos c2, h5, zero_sub]
    · rw [if_neg c2, if_neg c2, h3, zero_sub]

/-- The same for a row of real scores: the maximum, the sum of exponentials and the label's score of the whole row. -/
theorem tail_row {P : Type*} [Fintype P] [DecidableEq P] (x : P → EReal) (hx : ∀ p, IsReal (x p)) (t : P) :
    let m : EReal := Finset.univ.sup x
    let l : EReal := ∑ q, Ideal.exp (x q - m)
    let lp : EReal := min (x t - (m + Ideal.log l)) 0
    let pt : EReal := Ideal.exp lp
    let d : EReal := 1 - pt
    (0 - (if half ≤ pt then d * d * d else if pt < fifth then d * d * d * d * d else d * d * d)) * lp
      = focal (x t - m - Ideal.log l) := by
  classical
  intro m l
  choose xr hxr using hx
  obtain rfl : x = fun p => (xr p : EReal) := funext hxr
  have hne : (Finset.univ : Finset P).Nonempty := ⟨t, Finset.mem_univ t⟩
  obtain ⟨M, hM⟩ := sup_isReal (fun p => (xr p : EReal)) (fun p => ⟨xr p, rfl⟩) Finset.univ hne
  have hm : m = (M : EReal) := hM
  have hl : l = ((∑ q, Real.exp (xr q - M) : ℝ) : EReal) := by
    show ∑ q, Ideal.exp ((xr q : EReal) - m) = _
    rw [hm, coe_finset_sum]
    refine Finset.sum_congr rfl fun q _ => ?_
    rw [← EReal.coe_sub, Ideal.exp_coe]
  have hpos : 0 < ∑ q, Real.exp (xr q - M) :=
    Finset.sum_pos (fun q _ => Real.exp_pos _) hne
  have hge : Real.exp (xr t - M) ≤ ∑ q, Real.exp (xr q - M) :=
    Finset.single_le_sum (f := fun q => Real.exp (xr q - M)) (fun q _ => (Real.exp_pos _).le) (Finset.mem_univ t)
  rw [hm, hl]
  exact tail_real M _ (xr t) hpos hge

end Cert.Focal

end
-- ==== Proof.KStep.lean ====
/-
  The running state of one row over its column blocks, and the step that takes in one block.

  A row has 32000 columns in five blocks of 6400; lane `k` of block `j` is column `6400 j + k`. After the first `n`
  blocks the state of a row `f` is its maximum over the columns below `6400 n`, the sum of `e^(f q - maximum)` over
  them, and the sum over them of `f q` at the label's column and `0` elsewhere. Before any block the state is
  `-∞, 0, 0`; after all five the third component is the label's score. The kernel finds the label's lane by comparing,
  as 32-bit words, the lane number with the label minus the block's first column: for a label below 32000 that holds
  exactly at the lane whose column is the label.
-/
import proofs.«418412_j41128606826808_3_alg».proof.Proof.FocalMath

noncomputable section

open scoped BigOperators

namespace Cert.Focal

open Idealize.ShloMosaic Cert.Lib.OnlineSoftmax

/-- The columns below `6400 · n`. -/
def upTo (n : ℕ) : Finset (Fin 32000) := Finset.univ.filter fun q => q.val < 6400 * n

/-- Lane `k` of column block `j` is column `6400 j + k`. -/
def laneCol (j : ℕ) (hj : j < 5) : Fin 6400 ↪ Fin 32000 :=
  ⟨fun k => ⟨6400 * j + k.val, by have := k.isLt; omega⟩, fun a b h => by
    have h' : 6400 * j + a.val = 6400 * j + b.val := congrArg Fin.val h
    exact Fin.ext (by omega)⟩

theorem laneCol_val (j : ℕ) (hj : j < 5) (k : Fin 6400) : (laneCol j hj k).val = 6400 * j + k.val := rfl

/-- The columns of block `j`. -/
def blockCols (j : ℕ) (hj : j < 5) : Finset (Fin 32000) := Finset.univ.map (laneCol j hj)

theorem mem_blockCols (j : ℕ) (hj : j < 5) (q : Fin 32000) :
    q ∈ blockCols j hj ↔ 6400 * j ≤ q.val ∧ q.val < 6400 * (j + 1) := by
  unfold blockCols
  rw [Finset.mem_map]
  constructor
  · rintro ⟨k, _, rfl⟩
    rw [laneCol_val]
    have := k.isLt
    omega
  · rintro ⟨h1, h2⟩
    exact ⟨⟨q.val - 6400 * j, by omega⟩, Finset.mem_univ _, Fin.ext (by rw [laneCol_val]; show 6400 * j + (q.val - 6400 * j) = q.val; omega)⟩

theorem mem_upTo (n : ℕ) (q : Fin 32000) : q ∈ upTo n ↔ q.val < 6400 * n := by
  unfold upTo
  rw [Finset.mem_filter]
  exact ⟨fun h => h.2, fun h => ⟨Finset.mem_univ _, h⟩⟩

theorem upTo_zero : upTo 0 = ∅ := by
  ext q
  rw [mem_upTo]
  simp

theorem upTo_five : upTo 5 = Finset.univ := by
  ext q
  rw [mem_upTo]
  have := q.isLt
  simp only [Finset.mem_univ, iff_true]
  omega

theorem upTo_succ (j : ℕ) (hj : j < 5) : upTo (j + 1) = upTo j ∪ blockCols j hj := by
  ext q
  rw [Finset.mem_union, mem_blockCols, mem_upTo, mem_upTo]
  omega

theorem upTo_disjoint (j : ℕ) (hj : j < 5) : Disjoint (upTo j) (blockCols j hj) := by
  rw [Finset.disjoint_left]
  intro q h1 h2
  rw [mem_blockCols] at h2
  rw [mem_upTo] at h1
  omega

theorem blockCols_nonempty (j : ℕ) (hj : j < 5) : (blockCols j hj).Nonempty :=
  ⟨laneCol j hj ⟨0, by norm_num⟩, Finset.mem_map_of_mem _ (Finset.mem_univ _)⟩

/-- The state of row `f` after its first `n` blocks. -/
def runMax (f : Fin 32000 → EReal) (n : ℕ) : EReal := (upTo n).sup f
def runSum (f : Fin 32000 → EReal) (n : ℕ) : EReal := ∑ q ∈ upTo n, Ideal.exp (f q - runMax f n)
def runTgt (f : Fin 32000 → EReal) (tc : Fin 32000) (n : ℕ) : EReal := ∑ q ∈ upTo n, if q = tc then f q else 0

theorem runMax_zero (f : Fin 32000 → EReal) : runMax f 0 = ⊥ := by
  unfold runMax; rw [upTo_zero]; rfl

theorem runSum_zero (f : Fin 32000 → EReal) : runSum f 0 = 0 := by
  unfold runSum; rw [upTo_zero]; rfl

theorem runTgt_zero (f : Fin 32000 → EReal) (tc : Fin 32000) : runTgt f tc 0 = 0 := by
  unfold runTgt; rw [upTo_zero]; rfl

theorem blockCols_sup (f : Fin 32000 → EReal) (j : ℕ) (hj : j < 5) :
    (blockCols j hj).sup f = (Finset.univ : Finset (Fin 6400)).sup fun k => f (laneCol j hj k) := by
  unfold blockCols
  rw [Finset.sup_map]
  rfl

/-- The maximum after one more block. -/
theorem runMax_succ (f : Fin 32000 → EReal) (j : ℕ) (hj : j < 5) :
    max (runMax f j) ((Finset.univ : Finset (Fin 6400)).sup fun k => f (laneCol j hj k)) = runMax f (j + 1) := by
  unfold runMax
  rw [upTo_succ j hj, Finset.sup_union, blockCols_sup]

/-- The sum of exponentials after one more block: the old sum rescaled plus the block's terms. -/
theorem runSum_succ (f : Fin 32000 → EReal) (hf : ∀ q, IsReal (f q)) (j : ℕ) (hj : j < 5) :
    Ideal.exp (runMax f j - max (runMax f j) ((Finset.univ : Finset (Fin 6400)).sup fun k => f (laneCol j hj k))) * runSum f j
        + ∑ k : Fin 6400, Ideal.exp (f (laneCol j hj k) - max (runMax f j) ((Finset.univ : Finset (Fin 6400)).sup fun k => f (laneCol j hj k)))
      = runSum f (j + 1) := by
  have h := lse_step f hf (upTo j) (blockCols j hj) (upTo_disjoint j hj) (blockCols_nonempty j hj)
  rw [blockCols_sup] at h
  have hs : ∑ p ∈ blockCols j hj, Ideal.exp (f p - max ((upTo j).sup f) ((Finset.univ : Finset (Fin 6400)).sup fun k => f (laneCol j hj k)))
      = ∑ k : Fin 6400, Ideal.exp (f (laneCol j hj k) - max ((upTo j).sup f) ((Finset.univ : Finset (Fin 6400)).sup fun k => f (laneCol j hj k))) := by
    unfold blockCols
    rw [Finset.sum_map]
  rw [hs] at h
  unfold runSum runMax
  rw [upTo_succ j hj]
  exact h

/-- The label's score after one more block, for any test that holds exactly at the label's lane. -/
theorem runTgt_succ (f : Fin 32000 → EReal) (tc : Fin 32000) (j : ℕ) (hj : j < 5) (cond : Fin 6400 → Prop)
    [DecidablePred cond] (hc : ∀ k, cond k ↔ laneCol j hj k = tc) :
    runTgt f tc j + ∑ k : Fin 6400, (if cond k then f (laneCol j hj k) else 0) = runTgt f tc (j + 1) := by
  unfold runTgt
  rw [upTo_succ j hj, Finset.sum_union (upTo_disjoint j hj)]
  congr 1
  unfold blockCols
  rw [Finset.sum_map]
  refine Finset.sum_congr rfl fun k _ => ?_
  by_cases h : cond k
  · rw [if_pos h, if_pos ((hc k).mp h)]
  · rw [if_neg h, if_neg (fun e => h ((hc k).mpr e))]

/-- After all five blocks the label's accumulator is the label's score. -/
theorem runTgt_five (f : Fin 32000 → EReal) (tc : Fin 32000) : runTgt f tc 5 = f tc := by
  unfold runTgt
  rw [upTo_five, Finset.sum_ite_eq']
  simp

/-- After all five blocks the maximum and the sum are the whole row's. -/
theorem runMax_five (f : Fin 32000 → EReal) : runMax f 5 = Finset.univ.sup f := by
  unfold runMax; rw [upTo_five]

theorem runSum_five (f : Fin 32000 → EReal) : runSum f 5 = ∑ q, Ideal.exp (f q - Finset.univ.sup f) := by
  unfold runSum; rw [runMax_five, upTo_five]

/-- The kernel's lane test: for a label word below 32000, the lane number equals the label minus `6400 j` as 32-bit
    words exactly at the lane whose column is the label. -/
theorem lane_eq_iff (w : BitVec 32) (hw : w.toNat < 32000) (j : ℕ) (hj : j < 5) (k : Fin 6400) :
    BitVec.ofNat 32 k.val = w - BitVec.ofNat 32 j * 6400#32 ↔ laneCol j hj k = col w := by
  have hk := k.isLt
  have hcol : (col w).val = w.toNat := Nat.mod_eq_of_lt hw
  constructor
  · intro h
    apply Fin.ext
    rw [laneCol_val, hcol]
    have h' := congrArg BitVec.toNat h
    simp only [BitVec.toNat_ofNat, BitVec.toNat_sub, BitVec.toNat_mul] at h'
    omega
  · intro h
    have h' : 6400 * j + k.val = w.toNat := by
      have := congrArg Fin.val h
      rw [laneCol_val, hcol] at this
      exact this
    apply BitVec.eq_of_toNat_eq
    simp only [BitVec.toNat_ofNat, BitVec.toNat_sub, BitVec.toNat_mul]
    omega

end Cert.Focal

end
-- ==== Proof.KPoint.lean ====
/-
  One grid point of the streaming kernel, at one row of its block.

  If row `r` of the block is block `j` of a row `f` of real scores, the row's label word is `w < 32000`, and the three
  accumulators hold at `r` the state of `f` after its first `j` blocks (maximum, sum of exponentials against it, the
  label's score so far), then what the point stores back is the state after `j + 1` blocks. A first block starts from
  the constants `-∞, 0, 0`, which are the state after no block. At the fifth block the output row is the focal loss of
  the label's log-probability `(f t - M) - log S`, with `M` the row's maximum and `S = ∑ q, e^(f q - M)`.
-/
import proofs.«418412_j41128606826808_3_alg».proof.Proof.KPay
import proofs.«418412_j41128606826808_3_alg».proof.Proof.KStep

noncomputable section

open scoped BigOperators

namespace Cert.KernelIdeal.Point

open Cert.KernelIdeal Cert.KernelIdeal.Gen Idealize.ShloMosaic Idealize.ShloMosaic.ValueIdx
open Cert.Focal Cert.KernelIdeal.Pay
open Cert.Lib.OnlineSoftmax (IsReal)

/-- The constants a first block resets the accumulators to: `-∞`, `0`, `0`. -/
theorem pay4_apply (y : S256x1.Idx) : k0_pay4 (F := Ideal) y = ⊥ := by
  simp only [k0_pay4, shapeCast_self, broadcast]
  exact ofBits_neg_inf

theorem pay5_apply (y : S256x1.Idx) : k0_pay5 (F := Ideal) y = 0 := by
  simp only [k0_pay5, shapeCast_self, broadcast]
  exact Ideal.ofBits_zero_f32

theorem pay6_apply (y : S256x1.Idx) : k0_pay6 (F := Ideal) y = 0 := by
  simp only [k0_pay6, shapeCast_self, broadcast]
  exact Ideal.ofBits_zero_f32

/-- The step: from the state after `j` blocks to the state after `j + 1`. -/
theorem step (x0 : Vec Ideal S256x6400 .f32) (x1 : Vec Ideal S256x1 .i32) (xs0 xs1 xs2 : Vec Ideal S256x1 .f32)
    (i : grid0.Coords) (f : Fin 32000 → EReal) (hf : ∀ q, IsReal (f q)) (w : BitVec 32) (hw : w.toNat < 32000)
    (j : ℕ) (hj : j < 5) (r : Fin 256)
    (hx0 : ∀ k : Fin 6400, x0 (ix2 r k) = f (laneCol j hj k)) (hx1 : x1 (ix2 r 0) = w) (hi : (i 1).val = j)
    (h0 : xs0 (ix2 r 0) = runMax f j) (h1 : xs1 (ix2 r 0) = runSum f j) (h2 : xs2 (ix2 r 0) = runTgt f (col w) j) :
    k0_pay1 (k0_pay8 x0 xs0) (ix2 r 0) = runMax f (j + 1)
      ∧ k0_pay2 (k0_pay9 x0 xs0 xs1) (ix2 r 0) = runSum f (j + 1)
      ∧ k0_pay7 i x0 x1 xs2 (ix2 r 0) = runTgt f (col w) (j + 1) := by
  have hb : blockMax x0 r = (Finset.univ : Finset (Fin 6400)).sup fun k => f (laneCol j hj k) := by
    unfold blockMax
    exact congrArg (fun g => (Finset.univ : Finset (Fin 6400)).sup g) (funext hx0)
  refine ⟨?_, ?_, ?_⟩
  · rw [pay1_eq, pay8_apply, h0, hb]
    exact runMax_succ f j hj
  · rw [pay2_eq, pay9_apply, h0, h1, hb]
    simp only [hx0]
    exact runSum_succ f hf j hj
  · rw [pay7_apply, h2, hx1, hi]
    simp only [hx0]
    exact runTgt_succ f (col w) j hj (fun k => BitVec.ofNat 32 k.val = w - BitVec.ofNat 32 j * 6400#32)
      (fun k => lane_eq_iff w hw j hj k)

/-- The fifth block's output row: the focal loss of the label's log-probability. -/
theorem out (x0 : Vec Ideal S256x6400 .f32) (x1 : Vec Ideal S256x1 .i32) (xs0 xs1 xs2 : Vec Ideal S256x1 .f32)
    (i : grid0.Coords) (f : Fin 32000 → EReal) (hf : ∀ q, IsReal (f q)) (w : BitVec 32) (hw : w.toNat < 32000)
    (j : ℕ) (hj : j < 5) (hj4 : j = 4) (r : Fin 256)
    (hx0 : ∀ k : Fin 6400, x0 (ix2 r k) = f (laneCol j hj k)) (hx1 : x1 (ix2 r 0) = w) (hi : (i 1).val = j)
    (h0 : xs0 (ix2 r 0) = runMax f j) (h1 : xs1 (ix2 r 0) = runSum f j) (h2 : xs2 (ix2 r 0) = runTgt f (col w) j) :
    k0_pay3 (k0_pay1 (k0_pay8 x0 xs0)) (k0_pay2 (k0_pay9 x0 xs0 xs1)) (k0_pay7 i x0 x1 xs2) (ix2 r 0)
      = focal (f (col w) - Finset.univ.sup f - Ideal.log (∑ q, Ideal.exp (f q - Finset.univ.sup f))) := by
  subst hj4
  obtain ⟨e0, e1, e2⟩ := step x0 x1 xs0 xs1 xs2 i f hf w hw 4 hj r hx0 hx1 hi h0 h1 h2
  have e0' : k0_pay1 (k0_pay8 x0 xs0) (ix2 r 0) = runMax f 5 := e0
  have e1' : k0_pay2 (k0_pay9 x0 xs0 xs1) (ix2 r 0) = runSum f 5 := e1
  have e2' : k0_pay7 i x0 x1 xs2 (ix2 r 0) = runTgt f (col w) 5 := e2
  rw [pay3_apply, e0', e1', e2', runMax_five, runSum_five, runTgt_five]
  exact tail_row f hf (col w)

end Cert.KernelIdeal.Point

end
-- ==== Proof.KInv.lean ====
/-
  What the streaming kernel's accumulators and output block hold after each grid point.

  The grid is 16 row blocks by 5 column blocks, the column block running fastest: point `n` works on rows
  `256 (n / 5) … 256 (n / 5) + 255` and columns `6400 (n % 5) … 6400 (n % 5) + 6399` of the score table, and on the same
  rows of the label column. For a table of real scores and labels below 32000, after point `n` the three accumulators
  hold, at local row `r`, the running state of global row `256 (n / 5) + r` after its first `n % 5 + 1` column blocks —
  by induction on the point: a first column block starts from `-∞, 0, 0`, a later one from what the point before left
  for the same rows. At a last column block the output block holds, at local row `r`, the focal loss of that row.
-/
import proofs.«418412_j41128606826808_3_alg».proof.Proof.Gen.KernelIdeal.Frame
import proofs.«418412_j41128606826808_3_alg».proof.Proof.KPieces
import proofs.«418412_j41128606826808_3_alg».proof.Proof.KPoint
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Loss

open Cert.KernelIdeal Cert.KernelIdeal.Gen Idealize.ShloMosaic.ValueIdx
open Cert.Focal
open Cert.Lib.OnlineSoftmax (IsReal)

variable (m : (ℓ : Loc nD τ sig) → Buf (Elt Ideal) ℓ) (ρ : Dev nD → PrngReg)

/-- The score table and the label column as the region finds them, and the blocks of them a point works on. -/
abbrev xarr (c : Dev nD) : Vec Ideal S4096x32000 .f32 := V m c main_arg0
abbrev tarr (c : Dev nD) : Vec Ideal S4096x1 .i32 := V m c main_v0
abbrev xblk (c : Dev nD) (t : Fin cfg0.N) : Vec Ideal S256x6400 .f32 := iblk m c 0 t
abbrev tblk (c : Dev nD) (t : Fin cfg0.N) : Vec Ideal S256x1 .i32 := iblk m c 1 t

/-- The labels as launched. -/
abbrev labels (c : Dev nD) : Vec Ideal S4096 .i32 := m ((c : Thread nD τ).loc main_arg1)

/-- The printed index maps, decided over the grid: the row block is `n / 5`, the column block `n % 5`. -/
theorem idx_facts : ∀ t : Fin cfg0.N, win0_0.index t (0 : Fin 2) = t.val / 5 ∧ win0_0.index t (1 : Fin 2) = t.val % 5
    ∧ win0_1.index t (0 : Fin 2) = t.val / 5 ∧ win0_1.index t (1 : Fin 2) = 0
    ∧ win0_2.index t (0 : Fin 2) = t.val / 5 ∧ win0_2.index t (1 : Fin 2) = 0 :=
  (by decide +kernel : ∀ t : Fin grid0.N, _)

theorem coord_facts : ∀ t : Fin cfg0.N, ((grid0.coords t) 1).val = t.val % 5 :=
  (by decide +kernel : ∀ t : Fin grid0.N, _)

/-- A point's block of scores, read at a local index, is the table at the global one. -/
theorem xblk_apply (c : Dev nD) (t : Fin cfg0.N) (r : Fin 256) (k : Fin 6400) (p : Fin 4096) (q : Fin 32000)
    (hp : p.val = 256 * (t.val / 5) + r.val) (hq : q.val = 6400 * (t.val % 5) + k.val) :
    xblk m c t (ix2 r k) = xarr m c (ix2 p q) := by
  unfold xblk iblk
  rw [View.read_apply]
  show V m c main_arg0 _ = V m c main_arg0 _
  congr 1
  funext a
  apply Fin.ext
  obtain ⟨e0, e1, -⟩ := idx_facts t
  match a with
  | ⟨0, _⟩ => show win0_0.index t (0 : Fin 2) * 256 + 1 * r.val = p.val; rw [e0, hp]; omega
  | ⟨1, _⟩ => show win0_0.index t (1 : Fin 2) * 6400 + 1 * k.val = q.val; rw [e1, hq]; omega

/-- A point's block of labels, read at a local row, is the label column at the global row. -/
theorem tblk_apply (c : Dev nD) (t : Fin cfg0.N) (r : Fin 256) (p : Fin 4096)
    (hp : p.val = 256 * (t.val / 5) + r.val) :
    tblk m c t (ix2 r 0) = tarr m c (ix2 p 0) := by
  unfold tblk iblk
  rw [View.read_apply]
  show V m c main_v0 _ = V m c main_v0 _
  congr 1
  funext a
  apply Fin.ext
  obtain ⟨-, -, e2, e3, -⟩ := idx_facts t
  match a with
  | ⟨0, _⟩ => show win0_1.index t (0 : Fin 2) * 256 + 1 * r.val = p.val; rw [e2, hp]; omega
  | ⟨1, _⟩ => show win0_1.index t (1 : Fin 2) * 1 + 1 * 0 = 0; rw [e3]

/-- The label column is the labels cast to one column. -/
theorem tarr_eq (c : Dev nD) : tarr m c = shapeCast S4096x1 (labels m c) shapeCasts_S4096_S4096x1 := by
  show StableHlo.after hostOps0 (fun b => m (c, b)) (Proc.devRef .tc main_v0) = _
  after_results
  rfl

theorem tarr_apply (c : Dev nD) (p : Fin 4096) : tarr m c (ix2 p 0) = labels m c (ix1 p) := by
  rw [tarr_eq]
  exact Cert.Keepdims.shapeCast_a_a1_apply _ _ p 0

/-- The global row of local row `r` at point `n`. -/
def rowOf (n : ℕ) (hn : n < 80) (r : Fin 256) : Fin 4096 := ⟨256 * (n / 5) + r.val, by have := r.isLt; omega⟩

/-- Row `p` of the table. -/
abbrev rowf (c : Dev nD) (p : Fin 4096) : Fin 32000 → EReal := fun q => xarr m c (ix2 p q)

/-- What a point needs of its two blocks at a local row: the scores are a column block of the global row, the label
    is the global row's. -/
theorem blocks_at (c : Dev nD) (t : Fin cfg0.N) (r : Fin 256) (hj : t.val % 5 < 5) :
    (∀ k : Fin 6400, xblk m c t (ix2 r k) = rowf m c (rowOf t.val (lt_of_lt_of_eq t.isLt N_0) r) (laneCol (t.val % 5) hj k))
      ∧ tblk m c t (ix2 r 0) = labels m c (ix1 (rowOf t.val (lt_of_lt_of_eq t.isLt N_0) r)) :=
  ⟨fun k => xblk_apply m c t r k _ _ rfl rfl, (tblk_apply m c t r _ rfl).trans (tarr_apply m c _)⟩

/-- The three accumulators hold, at local row `r`, global row `p`'s state after its first `j` column blocks. -/
def Holds (c : Dev nD) (s : Vec Ideal S256x1 .f32 × Vec Ideal S256x1 .f32 × Vec Ideal S256x1 .f32) (r : Fin 256)
    (p : Fin 4096) (j : ℕ) : Prop :=
  s.1 (ix2 r 0) = runMax (rowf m c p) j ∧ s.2.1 (ix2 r 0) = runSum (rowf m c p) j
    ∧ s.2.2 (ix2 r 0) = runTgt (rowf m c p) (col (labels m c (ix1 p))) j

/-- One point takes the state after `n % 5` blocks to the state after `n % 5 + 1`. -/
theorem point_holds (c : Dev nD) (hx : ∀ i, IsReal (xarr m c i)) (hl : ∀ p : Fin 4096, (labels m c (ix1 p)).toNat < 32000)
    (t : Fin cfg0.N) (r : Fin 256) (xs0 xs1 xs2 : Vec Ideal S256x1 .f32)
    (h : Holds m c (xs0, xs1, xs2) r (rowOf t.val (lt_of_lt_of_eq t.isLt N_0) r) (t.val % 5)) :
    Holds m c (k0_pay1 (k0_pay8 (xblk m c t) xs0), k0_pay2 (k0_pay9 (xblk m c t) xs0 xs1),
      k0_pay7 (grid0.coords t) (xblk m c t) (tblk m c t) xs2) r (rowOf t.val (lt_of_lt_of_eq t.isLt N_0) r) (t.val % 5 + 1) := by
  have hj : t.val % 5 < 5 := Nat.mod_lt _ (by norm_num)
  obtain ⟨hb0, hb1⟩ := blocks_at m c t r hj
  exact Point.step (xblk m c t) (tblk m c t) xs0 xs1 xs2 (grid0.coords t)
    (rowf m c (rowOf t.val (lt_of_lt_of_eq t.isLt N_0) r)) (fun q => hx _)
    (labels m c (ix1 (rowOf t.val (lt_of_lt_of_eq t.isLt N_0) r))) (hl _) (t.val % 5) hj r hb0 hb1 (coord_facts t) h.1 h.2.1 h.2.2

/-- Before any block the state is `-∞, 0, 0`: what a first column block resets the accumulators to. -/
theorem holds_reset (c : Dev nD) (r : Fin 256) (p : Fin 4096) (j : ℕ) (hj : j = 0) :
    Holds m c (k0_pay4 (F := Ideal), k0_pay5 (F := Ideal), k0_pay6 (F := Ideal)) r p j := by
  subst hj
  unfold Holds
  exact ⟨(Point.pay4_apply (ix2 r 0)).trans (runMax_zero _).symm, (Point.pay5_apply (ix2 r 0)).trans (runSum_zero _).symm,
    (Point.pay6_apply (ix2 r 0)).trans (runTgt_zero _ _).symm⟩

/-- THE INVARIANT: after point `n` the accumulators hold the rows' state after `n % 5 + 1` column blocks. -/
theorem inv (c : Dev nD) (hx : ∀ i, IsReal (xarr m c i)) (hl : ∀ p : Fin 4096, (labels m c (ix1 p)).toNat < 32000) :
    ∀ (n : ℕ) (hn : n < cfg0.N) (r : Fin 256),
      Holds m c (outsAt0 m c n hn).2 r (rowOf n (lt_of_lt_of_eq hn N_0) r) (n % 5 + 1)
  | 0, hn, r => by
    have h0 : (⟨0, hn⟩ : Fin cfg0.N).val % 5 = 0 := rfl
    have h1 : ¬(⟨0, hn⟩ : Fin cfg0.N).val % 5 = 4 := by dsimp only; omega
    rw [outsAt0_A m c ⟨0, hn⟩ h0 h1]
    dsimp only
    rw [Pieces.max_A, Pieces.sum_A, Pieces.tgt_A]
    exact point_holds m c hx hl ⟨0, hn⟩ r (k0_pay4 (F := Ideal)) (k0_pay5 (F := Ideal)) (k0_pay6 (F := Ideal)) (holds_reset m c r _ _ h0)
  | n + 1, hn, r => by
    have hN : n + 1 < 80 := lt_of_lt_of_eq hn N_0
    by_cases h0 : (⟨n + 1, hn⟩ : Fin cfg0.N).val % 5 = 0
    · have h1 : ¬(⟨n + 1, hn⟩ : Fin cfg0.N).val % 5 = 4 := by dsimp only at h0 ⊢; omega
      rw [outsAt0_A m c ⟨n + 1, hn⟩ h0 h1]
      dsimp only
      rw [Pieces.max_A, Pieces.sum_A, Pieces.tgt_A]
      exact point_holds m c hx hl ⟨n + 1, hn⟩ r (k0_pay4 (F := Ideal)) (k0_pay5 (F := Ideal)) (k0_pay6 (F := Ideal)) (holds_reset m c r _ _ h0)
    · have ih := inv c hx hl n (Nat.lt_of_succ_lt hn) r
      have e1 : rowOf n (lt_of_lt_of_eq (Nat.lt_of_succ_lt hn) N_0) r = rowOf (n + 1) hN r := by
        apply Fin.ext
        show 256 * (n / 5) + r.val = 256 * ((n + 1) / 5) + r.val
        dsimp only at h0
        have : n / 5 = (n + 1) / 5 := by omega
        rw [this]
      have e2 : n % 5 + 1 = (n + 1) % 5 := by dsimp only at h0; omega
      rw [e1, e2] at ih
      by_cases h1 : (⟨n + 1, hn⟩ : Fin cfg0.N).val % 5 = 4
      · rw [outsAt0_C m c ⟨n + 1, hn⟩ h0 h1]
        dsimp only
        rw [Pieces.max_C, Pieces.sum_C, Pieces.tgt_C]
        exact point_holds m c hx hl ⟨n + 1, hn⟩ r _ _ _ ih
      · rw [outsAt0_B m c ⟨n + 1, hn⟩ h0 h1]
        dsimp only
        rw [Pieces.max_B, Pieces.sum_B, Pieces.tgt_B]
        exact point_holds m c hx hl ⟨n + 1, hn⟩ r _ _ _ ih

/-- At a last column block the output block holds, at local row `r`, the focal loss of the global row. -/
theorem out_block (c : Dev nD) (hx : ∀ i, IsReal (xarr m c i)) (hl : ∀ p : Fin 4096, (labels m c (ix1 p)).toNat < 32000)
    (t : Fin cfg0.N) (h4 : t.val % 5 = 4) (r : Fin 256) :
    (outsAt0 m c t.val t.isLt).1 (ix2 r 0)
      = focal (logProb (xarr m c) (labels m c) (rowOf t.val (lt_of_lt_of_eq t.isLt N_0) r)) := by
  have hN : t.val < 80 := lt_of_lt_of_eq t.isLt N_0
  have h0 : ¬t.val % 5 = 0 := by omega
  have hj : t.val % 5 < 5 := Nat.mod_lt _ (by norm_num)
  have hprev : t.val - 1 < cfg0.N := Nat.lt_of_le_of_lt (Nat.sub_le _ _) t.isLt
  have ih := inv m c hx hl (t.val - 1) hprev r
  have e1 : rowOf (t.val - 1) (lt_of_lt_of_eq hprev N_0) r = rowOf t.val hN r := by
    apply Fin.ext
    show 256 * ((t.val - 1) / 5) + r.val = 256 * (t.val / 5) + r.val
    have : (t.val - 1) / 5 = t.val / 5 := by omega
    rw [this]
  have e2 : (t.val - 1) % 5 + 1 = t.val % 5 := by omega
  rw [e1, e2] at ih
  obtain ⟨hb0, hb1⟩ := blocks_at m c t r hj
  rw [outsAt0_C m c t h0 h4]
  dsimp only
  rw [Pieces.out_C]
  exact Point.out (xblk m c t) (tblk m c t) _ _ _ (grid0.coords t) (rowf m c (rowOf t.val hN r)) (fun q => hx _)
    (labels m c (ix1 (rowOf t.val hN r))) (hl _) (t.val % 5) hj h4 r hb0 hb1 (coord_facts t) ih.1 ih.2.1 ih.2.2

end Cert.KernelIdeal.Loss

end
-- ==== Proof.KRun.lean ====
/-
  The streaming kernel's result: the sum over the rows of each row's focal loss.

  The output column has one entry per row. A point of a last column block writes back its 256 rows, which are the
  rows' focal losses; row `i` is covered by the point `5 (i / 256) + 4`, so after the run the column holds every
  row's focal loss. The host then sums the column from zero, and a sum over the indices of a one-column array is the
  sum over its rows.
-/
import proofs.«418412_j41128606826808_3_alg».proof.Proof.KInv

set_option maxRecDepth 16384

noncomputable section

open scoped BigOperators

open Idealize.ShloMosaic Idealize.ShloMosaic.TcCoe Idealize.SL.Sem
open Idealize.ShloMosaic.Pipeline (Dat)

namespace Cert.KernelIdeal.Loss

open Cert.KernelIdeal Cert.KernelIdeal.Gen Idealize.ShloMosaic.ValueIdx
open Cert.Focal
open Cert.Lib.OnlineSoftmax (IsReal)

variable (m : (ℓ : Loc nD τ sig) → Buf (Elt Ideal) ℓ) (ρ : Dev nD → PrngReg)

/-- The column of the rows' focal losses. -/
abbrev lossCol (c : Dev nD) : Vec Ideal S4096x1 .f32 := fun y => focal (logProb (xarr m c) (labels m c) (y 0))

/-- Where a local index of the output block at point `t` lies in the column. -/
theorem emb_out (t : Fin cfg0.N) (y : S256x1.Idx) :
    ((cfg0.win 2).blk t).view.emb y = ix2 (rowOf t.val (lt_of_lt_of_eq t.isLt N_0) (y 0)) (0 : Fin 1) := by
  funext a
  apply Fin.ext
  obtain ⟨-, -, -, -, e4, e5⟩ := idx_facts t
  have h1 : (y 1).val < 1 := (y 1).isLt
  match a with
  | ⟨0, _⟩ => show win0_2.index t (0 : Fin 2) * 256 + 1 * (y 0).val = 256 * (t.val / 5) + (y 0).val; rw [e4]; omega
  | ⟨1, _⟩ => show win0_2.index t (1 : Fin 2) * 1 + 1 * (y 1).val = 0; rw [e5]; omega

/-- The output block after a last column block, at any local index. -/
theorem out_block_idx (c : Dev nD) (hx : ∀ i, IsReal (xarr m c i)) (hl : ∀ p : Fin 4096, (labels m c (ix1 p)).toNat < 32000)
    (t : Fin cfg0.N) (h4 : t.val % 5 = 4) (y : S256x1.Idx) :
    (outsAt0 m c t.val t.isLt).1 y = lossCol m c (ix2 (rowOf t.val (lt_of_lt_of_eq t.isLt N_0) (y 0)) (0 : Fin 1)) := by
  obtain ⟨r, u, rfl⟩ : ∃ (r : Fin 256) (u : Fin 1), y = ix2 r u := ⟨y 0, y 1, eq_ix2 y⟩
  obtain rfl : u = 0 := Subsingleton.elim _ _
  exact out_block m c hx hl t h4 r

/-- What a flushing point writes back is its block of the column of focal losses. -/
theorem flushed_eq (c : Dev nD) (hx : ∀ i, IsReal (xarr m c i)) (hl : ∀ p : Fin 4096, (labels m c (ix1 p)).toNat < 32000)
    (t : Fin cfg0.N) (hf : (cfg0.win 2).flush t = true) :
    (dats m 0 c).flushed 2 t = ((cfg0.win 2).blk t).view.read (Elt Ideal) (lossCol m c) := by
  have h4 : t.val % 5 = 4 := (flush0_2 t).mp hf
  show (cfg0.win 2).cut (grid0.coords t) ((dats m 0 c).after 2 t) = _
  rw [after0_2]
  funext y
  show (outsAt0 m c t.val t.isLt).1 y = lossCol m c (((cfg0.win 2).blk t).view.emb y)
  exact (out_block_idx m c hx hl t h4 y).trans (congrArg (lossCol m c) (emb_out t y).symm)

/-- Every row of the column is in the block of some flushing point. -/
theorem covered (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hlt : 5 * ((i 0).val / 256) + 4 < cfg0.N := by rw [show cfg0.N = 80 from N_0]; omega
  refine ⟨⟨5 * ((i 0).val / 256) + 4, hlt⟩, (flush0_2 _).mpr (by show (5 * ((i 0).val / 256) + 4) % 5 = 4; omega), ?_⟩
  show i ∈ ((View.whole main_v1).slice (win0_2.rect ⟨5 * ((i 0).val / 256) + 4, hlt⟩)).set
  rw [View.set_slice_whole, Rect.mem_set_unit]
  obtain ⟨-, -, -, -, e4, e5⟩ := idx_facts ⟨5 * ((i 0).val / 256) + 4, hlt⟩
  have e4' : win0_2.index ⟨5 * ((i 0).val / 256) + 4, hlt⟩ (0 : Fin 2) = (i 0).val / 256 := by
    rw [e4]; show (5 * ((i 0).val / 256) + 4) / 5 = _; omega
  intro a
  match a with
  | ⟨0, _⟩ =>
    show win0_2.index ⟨5 * ((i 0).val / 256) + 4, hlt⟩ (0 : Fin 2) * 256 ≤ (i 0).val
      ∧ (i 0).val < win0_2.index ⟨5 * ((i 0).val / 256) + 4, hlt⟩ (0 : Fin 2) * 256 + 256
    rw [e4']; omega
  | ⟨1, _⟩ =>
    show win0_2.index ⟨5 * ((i 0).val / 256) + 4, hlt⟩ (1 : Fin 2) * 1 ≤ (i 1).val
      ∧ (i 1).val < win0_2.index ⟨5 * ((i 0).val / 256) + 4, hlt⟩ (1 : Fin 2) * 1 + 1
    rw [e5]; omega

/-- After the run the output column holds every row's focal loss. -/
theorem final (c : Dev nD) (hx : ∀ i, IsReal (xarr m c i)) (hl : ∀ p : Fin 4096, (labels m c (ix1 p)).toNat < 32000) :
    (dats m 0 c).arrAt 2 cfg0.N = lossCol m c :=
  (dats m 0 c).arrAt_eq_of_cover 2 (lossCol m c) (flushed_eq m c hx hl) covered

/-- The host's sum of the column from zero is the sum of the rows' focal losses. -/
theorem tail (c : Dev nD) (hx : ∀ i, IsReal (xarr m c i)) (hl : ∀ p : Fin 4096, (labels m c (ix1 p)).toNat < 32000) :
    Pipeline.afterTail₀ cfgs (dats m) 0 (V0 m) [hostOps1] c main_v2 = fun _ => loss (xarr m c) (labels m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = lossCol m c from (Pipeline.withArrays_arr spec0 launch0.win.arr_inj c _ _ 2).trans (final m c hx hl)]
  funext j
  simp only [Host.reduceAdd, Ideal.hostReduceAdd_def]
  rw [Ideal.hostReduceAdd_total reducesTo_S4096x1_S_d0_1 (fun b => b.elim0) _ _ j]
  show Ideal.ofBits .f32 0x00000000#32 + ∑ i : S4096x1.Idx, lossCol m c i = loss (xarr m c) (labels m c)
  rw [Ideal.ofBits_zero_f32, zero_add, sum_idx2]
  unfold loss
  refine Finset.sum_congr rfl fun p _ => ?_
  rw [Fin.sum_univ_one]

/-- THE RUN, READ: from a table of real scores and labels below 32000 the kernel's program ends with its result at the sum
    of the rows' focal losses and its arguments unchanged. -/
theorem run (hx : ∀ (c : Dev nD) (i : S4096x32000.Idx), IsReal (m ((c : Thread nD τ).loc main_arg0) i))
    (hl : ∀ (c : Dev nD) (p : Fin 4096), (m ((c : Thread nD τ).loc main_arg1) (ix1 p)).toNat < 32000) :
    θ_run defs (onTc (τ := τ) (main (F := Ideal))) ⟨m, fun _ => 0, ρ⟩ fun r => ∀ c : Dev nD,
      r.2.mem ((c.tc : Thread nD τ).loc main_v2)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hx' : ∀ c i, IsReal (xarr m c i) := fun c i => by
    rw [show xarr m c = m ((c : Thread nD τ).loc main_arg0) from V_main_arg0 m c]; exact hx c i
  refine (θ_run defs _ _).mono (fun _ h c => ⟨?_, ?_, ?_⟩) (run_main m ρ)
  · refine ((h c).2 main_v2 (Pipeline.mem_restRefs_of main_v2 (by decide) (by decide))).trans ?_
    rw [tail m c (hx' c) (hl c), show xarr m c = m ((c : Thread nD τ).loc main_arg0) from V_main_arg0 m c]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.Loss

end
-- ==== Proof.lean ====
/-
  The adaptive focal loss, streamed: a kernel that walks each block of 256 rows across five column blocks of a
  [4096, 32000] table of scores — keeping per row the running maximum, the running sum of exponentials rescaled to it, and
  the label's score picked out by a one-hot lane test —, computes at the last column block each row's loss
  `-(1 - pt)^γ · lp` from the clamped log-probability `lp = min (x t - (M + log S)) 0` with the powers as repeated products,
  and sums the 4096 losses on the host, against jnp's `log_softmax`, `take_along_axis`, `where`, `power` and `sum`.

  Over the extended reals the two programs compute one number when every score is a real number and every label is a class,
  `0 ≤ target < 32000` (the precondition): the running maximum and the rescaled running sum after all five blocks are the
  row's maximum `M` and `S = ∑ q, e^(x q - M)` (the rescaling `e^(M - M') · e^(x - M) = e^(x - M')` is exact on real
  numbers, and the first block starts from `-∞`, `0`); the one-hot sums pick exactly the label's score; `x t - (M + log S) ≤ 0`
  because `S ≥ e^(x t - M)`, so the clamp does nothing and `x t - (M + log S) = (x t - M) - log S`; `(1 - pt)^3` and
  `(1 - pt)^5` by products are the real powers; and a sum over a one-column array is the sum over its rows.
  A label outside `0 … 31999` is outside the reference's domain: its `take_along_axis` wraps a negative label and fills
  what is still out of range, where the kernel's lane test finds no lane.

  The kernel's two frames are the generated ones. The kernel's value is read off the generated frame run: what each point
  leaves in the accumulators (the generated runs' pieces, as the body's arithmetic), an induction over the 80 grid points,
  the output column block by block, and the host's final sum. The reference's run is stated over the generated stages of
  its 63 host operations and proved in three stretches; its last stage is the loss by the generated read-at-an-index
  lemmas, the row maximum as a supremum and the gather as a take along the class axis.
-/
import proofs.«418412_j41128606826808_3_alg».proof.Defs
import proofs.«418412_j41128606826808_3_alg».proof.Proof.Gen.Kernel
import proofs.«418412_j41128606826808_3_alg».proof.Proof.Gen.Kernel.Skeleton
import proofs.«418412_j41128606826808_3_alg».proof.Proof.Gen.Kernel.Launch
import proofs.«418412_j41128606826808_3_alg».proof.Proof.Gen.Kernel.Points
import proofs.«418412_j41128606826808_3_alg».proof.Proof.Gen.Kernel.Frame
import proofs.«418412_j41128606826808_3_alg».proof.Proof.Gen.KernelIdeal
import proofs.«418412_j41128606826808_3_alg».proof.Proof.Gen.KernelIdeal.Skeleton
import proofs.«418412_j41128606826808_3_alg».proof.Proof.Gen.KernelIdeal.Launch
import proofs.«418412_j41128606826808_3_alg».proof.Proof.Gen.KernelIdeal.Points
import proofs.«418412_j41128606826808_3_alg».proof.Proof.Gen.KernelIdeal.Frame
import proofs.«418412_j41128606826808_3_alg».proof.Proof.Gen.ReferenceIdeal
import proofs.«418412_j41128606826808_3_alg».proof.Proof.Gen.Pre_finite_inputs
import proofs.«418412_j41128606826808_3_alg».proof.Proof.PreRead
import proofs.«418412_j41128606826808_3_alg».proof.Proof.RefStages
import proofs.«418412_j41128606826808_3_alg».proof.Proof.RefLoss
import proofs.«418412_j41128606826808_3_alg».proof.Proof.KRun
import Idealize.ShloMosaic.Adequacy
import Idealize.ShloMosaic.Init

noncomputable section

namespace Cert.Proof

open Idealize.ShloMosaic Idealize.SL.Sem Idealize.ShloMosaic.ValueIdx

namespace FocalClaims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The ideal pass rewrote nothing. -/
theorem preserves : Cert.preserves_Kernel_KernelIdeal := trivial

/-- Under the precondition the kernel's result and the reference's are both the table's focal loss: the kernel's by its
    run read back, the reference's by its run over stages and the last stage read at the extended reals, of arguments
    that agree. -/
theorem algebraic : Cert.algebraic_KernelIdeal_ReferenceIdeal := by
  intro m ρ m' ρ' hpre hagree
  have hp := fun c : Dev Cert.KernelIdeal.nD => Cert.Focal.pre_reads _ _ (hpre c)
  refine ⟨fun c _ => Cert.Focal.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Loss.run m ρ (fun c => (hp c).1) (fun c => (hp c).2), ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact Cert.Focal.ref_value _ _ (hp c).2

end FocalClaims

theorem claim : Cert.Claim := ⟨Cert.Kernel.Gen.facts, Cert.KernelIdeal.Gen.facts, Cert.ReferenceIdeal.Gen.facts, Cert.Pre_finite_inputs.Gen.facts,
  FocalClaims.frame_k, FocalClaims.frame_ki, FocalClaims.frame_ri, FocalClaims.preserves, FocalClaims.algebraic⟩

end Cert.Proof

end
